-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S8x2048x2048 : Shape := ⟨3, ![8, 2048, 2048]⟩
abbrev S256x256 : Shape := ⟨2, ![256, 256]⟩
abbrev S256x128 : Shape := ⟨2, ![256, 128]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg4 : FVec F S256x128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  main_v23

def fn {F : FTy → Type} [FloatOps F] (main_arg0 : FVec F S8x2048x256 .f32) (main_arg1 : FVec F S8x2048x2048 .f32) (main_arg2 : FVec F S256x256 .f32) (main_arg3 : FVec F S256x256 .f32) (main_arg4 : FVec F S256x128 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S8x2048x256 : Shape := ⟨3, ![8, 2048, 256]⟩
abbrev S8x2048x2048 : Shape := ⟨3, ![8, 2048, 2048]⟩
abbrev S256x256 : Shape := ⟨2, ![256, 256]⟩
abbrev S256x128 : Shape := ⟨2, ![256, 128]⟩
abbrev S8x2048x128 : Shape := ⟨3, ![8, 2048, 128]⟩
abbrev S1x2048x256 : Shape := ⟨3, ![1, 2048, 256]⟩
abbrev S1x2048x2048 : Shape := ⟨3, ![1, 2048, 2048]⟩
abbrev S1x2048x128 : Shape := ⟨3, ![1, 2048, 128]⟩
abbrev S2048x256 : Shape := ⟨2, ![2048, 256]⟩
abbrev S2048x2048 : Shape := ⟨2, ![2048, 2048]⟩
abbrev S256x2048 : Shape := ⟨2, ![256, 2048]⟩
abbrev S2048x128 : Shape := ⟨2, ![2048, 128]⟩
abbrev S128 : Shape := ⟨1, ![128]⟩
abbrev S1x128 : Shape := ⟨2, ![1, 128]⟩

abbrev nBuf : Space → Nat
  | .hbm => 6
  | .vmem => 9
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S256x256, .f32⟩
  | .hbm, ⟨3, _⟩ => ⟨S256x256, .f32⟩
  | .hbm, ⟨4, _⟩ => ⟨S256x128, .f32⟩
  | .hbm, ⟨5, _⟩ => ⟨S8x2048x128, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x2048, .f32⟩
  | .local _ .vmem, ⟨3, _⟩ => ⟨S1x2048x2048, .f32⟩
  | .local _ .vmem, ⟨4, _⟩ => ⟨S256x256, .f32⟩
  | .local _ .vmem, ⟨5, _⟩ => ⟨S256x256, .f32⟩
  | .local _ .vmem, ⟨6, _⟩ => ⟨S256x128, .f32⟩
  | .local _ .vmem, ⟨7, _⟩ => ⟨S1x2048x128, .f32⟩
  | .local _ .vmem, ⟨8, _⟩ => ⟨S1x2048x128, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  inb_S256x256_S256x256_0_0 : ∀ a, (![0, 0] : Fin 2 → Nat) a + S256x256.size a ≤ S256x256.size a
  h_S256x256 : 0 < S256x256.numel
  slices_S2048x2048_o0_0_S256x2048 : S2048x2048.Slices ![0, 0] S256x2048
  slices_S2048x2048_o256_0_S256x2048 : S2048x2048.Slices ![256, 0] S256x2048
  slices_S2048x2048_o512_0_S256x2048 : S2048x2048.Slices ![512, 0] S256x2048
  slices_S2048x2048_o768_0_S256x2048 : S2048x2048.Slices ![768, 0] S256x2048
  slices_S2048x2048_o1024_0_S256x2048 : S2048x2048.Slices ![1024, 0] S256x2048
  slices_S2048x2048_o1280_0_S256x2048 : S2048x2048.Slices ![1280, 0] S256x2048
  slices_S2048x2048_o1536_0_S256x2048 : S2048x2048.Slices ![1536, 0] S256x2048
  slices_S2048x2048_o1792_0_S256x2048 : S2048x2048.Slices ![1792, 0] S256x2048
  concatenates_S256x256_S256x256_S256x256_S256x256_S256x256_S256x256_S256x256_S256x256_S2048x256_d0 : Shape.Concatenates [S256x256, S256x256, S256x256, S256x256, S256x256, S256x256, S256x256, S256x256] S2048x256 0
  inb_S256x128_S256x128_0_0 : ∀ a, (![0, 0] : Fin 2 → Nat) a + S256x128.size a ≤ S256x128.size a
  h_S256x128 : 0 < S256x128.numel
  concatenates_S256x128_S256x128_S256x128_S256x128_S256x128_S256x128_S256x128_S256x128_S2048x128_d0 : Shape.Concatenates [S256x128, S256x128, S256x128, S256x128, S256x128, S256x128, S256x128, S256x128] S2048x128 0
  reduces_S2048x128_S128 : S2048x128.Reduces [0] S128
  shapeCasts_S128_S1x128 : S128.ShapeCasts S1x128
  broadcasts_S1x128_S2048x128 : S1x128.Broadcasts S2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  dot_S2048x256_S256x256_S2048x256_1_0_0_1_n_n_wf : DotDims.WF S2048x256 S256x256 S2048x256 [1] [0] [0] [1] [] []
  dot_S256x2048_S2048x256_S256x256_1_0_0_1_n_n_wf : DotDims.WF S256x2048 S2048x256 S256x256 [1] [0] [0] [1] [] []
  dot_S2048x256_S256x128_S2048x128_1_0_0_1_n_n_wf : DotDims.WF S2048x256 S256x128 S2048x128 [1] [0] [0] [1] [] []
  dot_S256x2048_S2048x128_S256x128_1_0_0_1_n_n_wf : DotDims.WF S256x2048 S2048x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x2048.size a ≤ S8x2048x2048.size a
  hwx0_1 : ∀ i : grid0.Coords, EltTy.bits .f32 = 32 ∨ (Rect.block (s := S8x2048x2048) S1x2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x128.size a ≤ S8x2048x128.size a
  hwx0_5 : ∀ i : grid0.Coords, EltTy.bits .f32 = 32 ∨ (Rect.block (s := S8x2048x128) S1x2048x128.size (cc0_transform_5 i) (hinb0_5 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x2048x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S8x2048x2048 : Shape := ⟨3, ![8, 2048, 2048]⟩
abbrev S256x256 : Shape := ⟨2, ![256, 256]⟩
abbrev S256x128 : Shape := ⟨2, ![256, 128]⟩
abbrev S_ : Shape := ⟨0, ![]⟩
abbrev S8x2048x128 : Shape := ⟨3, ![8, 2048, 128]⟩
abbrev S8x128 : Shape := ⟨2, ![8, 128]⟩
abbrev S8x1x128 : Shape := ⟨3, ![8, 1, 128]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S256x256, .f32⟩
  | .hbm, ⟨3, _⟩ => ⟨S256x256, .f32⟩
  | .hbm, ⟨4, _⟩ => ⟨S256x128, .f32⟩
  | .hbm, ⟨5, _⟩ => ⟨S8x2048x256, .f32⟩
  | .hbm, ⟨6, _⟩ => ⟨S8x2048x256, .f32⟩
  | .hbm, ⟨7, _⟩ => ⟨S_, .f32⟩
  | .hbm, ⟨8, _⟩ => ⟨S8x2048x256, .f32⟩
  | .hbm, ⟨9, _⟩ => ⟨S8x2048x256, .f32⟩
  | .hbm, ⟨10, _⟩ => ⟨S8x2048x256, .f32⟩
  | .hbm, ⟨11, _⟩ => ⟨S8x2048x256, .f32⟩
  | .hbm, ⟨12, _⟩ => ⟨S_, .f32⟩
  | .hbm, ⟨13, _⟩ => ⟨S8x2048x256, .f32⟩
  | .hbm, ⟨14, _⟩ => ⟨S8x2048x256, .f32⟩
  | .hbm, ⟨15, _⟩ => ⟨S8x2048x128, .f32⟩
  | .hbm, ⟨16, _⟩ => ⟨S8x2048x128, .f32⟩
  | .hbm, ⟨17, _⟩ => ⟨S_, .f32⟩
  | .hbm, ⟨18, _⟩ => ⟨S8x2048x128, .f32⟩
  | .hbm, ⟨19, _⟩ => ⟨S8x2048x128, .f32⟩
  | .hbm, ⟨20, _⟩ => ⟨S_, .f32⟩
  | .hbm, ⟨21, _⟩ => ⟨S8x128, .f32⟩
  | .hbm, ⟨22, _⟩ => ⟨S_, .f32⟩
  | .hbm, ⟨23, _⟩ => ⟨S8x128, .f32⟩
  | .hbm, ⟨24, _⟩ => ⟨S8x128, .f32⟩
  | .hbm, ⟨25, _⟩ => ⟨S8x1x128, .f32⟩
  | .hbm, ⟨26, _⟩ => ⟨S8x2048x128, .f32⟩
  | .hbm, ⟨27, _⟩ => ⟨S8x2048x128, .f32⟩
  | .hbm, ⟨28, _⟩ => ⟨S8x2048x128, .f32⟩
  | .hbm, ⟨29, _⟩ => ⟨S_, .f32⟩
  | .hbm, ⟨30, _⟩ => ⟨S8x128, .f32⟩
  | .hbm, ⟨31, _⟩ => ⟨S8x1x128, .f32⟩
  | .hbm, ⟨32, _⟩ => ⟨S8x1x128, .f32⟩
  | .hbm, ⟨33, _⟩ => ⟨S8x2048x128, .f32⟩
  | .hbm, ⟨34, _⟩ => ⟨S8x2048x128, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_cst : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call2_cst : Ref sig .tc := ⟨.hbm, 17, rfl⟩
abbrev main_call2_v0 : Ref sig .tc := ⟨.hbm, 18, rfl⟩
abbrev main_v8 : Ref sig .tc := ⟨.hbm, 19, rfl⟩
abbrev main_call3_cst : Ref sig .tc := ⟨.hbm, 20, rfl⟩
abbrev main_call3_v0 : Ref sig .tc := ⟨.hbm, 21, rfl⟩
abbrev main_call3_cst_0 : Ref sig .tc := ⟨.hbm, 22, rfl⟩
abbrev main_call3_v1 : Ref sig .tc := ⟨.hbm, 23, rfl⟩
abbrev main_call3_v2 : Ref sig .tc := ⟨.hbm, 24, rfl⟩
abbrev main_call3_v3 : Ref sig .tc := ⟨.hbm, 25, rfl⟩
abbrev main_call3_v4 : Ref sig .tc := ⟨.hbm, 26, rfl⟩
abbrev main_call3_v5 : Ref sig .tc := ⟨.hbm, 27, rfl⟩
abbrev main_call3_v6 : Ref sig .tc := ⟨.hbm, 28, rfl⟩
abbrev main_call3_cst_1 : Ref sig .tc := ⟨.hbm, 29, rfl⟩
abbrev main_call3_v7 : Ref sig .tc := ⟨.hbm, 30, rfl⟩
abbrev main_call3_v8 : Ref sig .tc := ⟨.hbm, 31, rfl⟩
abbrev main_call3_v9 : Ref sig .tc := ⟨.hbm, 32, rfl⟩
abbrev main_call3_v10 : Ref sig .tc := ⟨.hbm, 33, rfl⟩
abbrev main_v9 : Ref sig .tc := ⟨.hbm, 34, rfl⟩

abbrev nD : Nat := 1
abbrev τ : Topo := Topo.v7x

variable {F : FTy → Type} [FloatOps F]

class Facts₀ : Prop where
  bcast_S_S8x2048x256 : S_.BroadcastsInDim S8x2048x256 (![] : Fin 0 → Fin S8x2048x256.rank)
  bcast_S_S8x2048x128 : S_.BroadcastsInDim S8x2048x128 (![] : Fin 0 → Fin S8x2048x128.rank)
  reducesTo_S8x2048x128_S8x128_d1 : S8x2048x128.ReducesTo [1] S8x128
  h_S_ : 0 < S_.numel
  bcast_S_S8x128 : S_.BroadcastsInDim S8x128 (![] : Fin 0 → Fin S8x128.rank)
  bcast_S8x128_S8x1x128_0_2 : S8x128.BroadcastsInDim S8x1x128 (![0, 2] : Fin 2 → Fin S8x1x128.rank)
  bcast_S8x1x128_S8x2048x128_0_1_2 : S8x1x128.BroadcastsInDim S8x2048x128 (![0, 1, 2] : Fin 3 → Fin S8x2048x128.rank)
  dot_S8x2048x256_S256x256_S8x2048x256_2_0_01_1_n_n_wf : DotDims.WF S8x2048x256 S256x256 S8x2048x256 [2] [0] [0, 1] [1] [] []
  dot_S8x2048x2048_S8x2048x256_S8x2048x256_2_1_1_2_0_0_wf : DotDims.WF S8x2048x2048 S8x2048x256 S8x2048x256 [2] [1] [1] [2] [0] [0]
  dot_S8x2048x256_S256x128_S8x2048x128_2_0_01_1_n_n_wf : DotDims.WF S8x2048x256 S256x128 S8x2048x128 [2] [0] [0, 1] [1] [] []
  dot_S8x2048x2048_S8x2048x128_S8x2048x128_2_1_1_2_0_0_wf : DotDims.WF S8x2048x2048 S8x2048x128 S8x2048x128 [2] [1] [1] [2] [0] [0]

variable [Facts₀]

def dot_S8x2048x256_S256x256_S8x2048x256_2_0_01_1_n_n : DotDims S8x2048x256 S256x256 S8x2048x256 where
  lhsContracting := [2]
  rhsContracting := [0]
  lhsNonContracting := [0, 1]
  rhsNonContracting := [1]
  lhsBatch := []
  rhsBatch := []
  wf := dot_S8x2048x256_S256x256_S8x2048x256_2_0_01_1_n_n_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf
def dot_S8x2048x256_S256x128_S8x2048x128_2_0_01_1_n_n : DotDims S8x2048x256 S256x128 S8x2048x128 where
  lhsContracting := [2]
  rhsContracting := [0]
  lhsNonContracting := [0, 1]
  rhsNonContracting := [1]
  lhsBatch := []
  rhsBatch := []
  wf := dot_S8x2048x256_S256x128_S8x2048x128_2_0_01_1_n_n_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.Spec.lean ====
/-
  What both programs compute, as plain functions on the extended reals.

  One graph has N nodes. A graph-convolution layer takes node features H (N × D), a weight matrix W (D × E) and the dense
  adjacency A (N × N): first the support S = H · W, then every node sums its neighbours' supports weighted by its adjacency
  row, and the result is clipped below at zero: relu (A · (H · W)). Three layers are stacked; the last has E = 128 label
  columns. The network ends in a log-softmax taken DOWN each label column, over the nodes: with M l the column's maximum,
  out n l = (H n l − M l) − log (∑ n', exp (H n' l − M l)).

  Every sum here is a finite sum in the commutative monoid of the extended reals, so neither the order in which a sum is
  accumulated nor the cutting of the rows of A into slabs changes any entry: the statement needs no finiteness of the inputs.
-/
import Idealize.ShloMosaic.PureOps.Ideal
import Idealize.ShloMosaic.Lib.ValueIdx
import Mathlib.Data.Finset.Fold

noncomputable section

open scoped BigOperators

namespace Cert.Gcn

open Idealize.ShloMosaic Idealize.ShloMosaic.ValueIdx

/-- The value of the f32 word of negative infinity: where a column maximum starts from. -/
abbrev negInf : EReal := Ideal.ofBits .f32 0xFF800000#32

/-- The support `H · W`: entry `(n, e)` sums over the input features. -/
def support {N D E : ℕ} (H : Fin N → Fin D → EReal) (W : Fin D → Fin E → EReal) : Fin N → Fin E → EReal :=
  fun n e => ∑ d : Fin D, H n d * W d e

/-- The aggregation `relu (A · S)`: node `n` sums the supports of all nodes `k` weighted by `A n k`, clipped below at 0. -/
def aggregate {N E : ℕ} (A : Fin N → Fin N → EReal) (S : Fin N → Fin E → EReal) : Fin N → Fin E → EReal :=
  fun n e => max (∑ k : Fin N, A n k * S k e) 0

/-- One graph-convolution layer. -/
def layer {N D E : ℕ} (A : Fin N → Fin N → EReal) (H : Fin N → Fin D → EReal) (W : Fin D → Fin E → EReal) :
    Fin N → Fin E → EReal :=
  aggregate A (support H W)

/-- The maximum of label column `l` over the nodes, from negative infinity. -/
def colMax {N L : ℕ} (H : Fin N → Fin L → EReal) (l : Fin L) : EReal :=
  (Finset.univ : Finset (Fin N)).fold max negInf (fun n => H n l)

/-- A column shifted by its maximum. -/
def shifted {N L : ℕ} (H : Fin N → Fin L → EReal) : Fin N → Fin L → EReal :=
  fun n l => H n l - colMax H l

/-- The log-softmax down the node axis. -/
def logSoftmaxNodes {N L : ℕ} (H : Fin N → Fin L → EReal) : Fin N → Fin L → EReal :=
  fun n l => shifted H n l - Ideal.log (∑ n' : Fin N, Ideal.exp (shifted H n' l))

/-- The whole network on one graph. -/
def gcn {N D1 D2 D3 L : ℕ} (A : Fin N → Fin N → EReal) (X : Fin N → Fin D1 → EReal) (W1 : Fin D1 → Fin D2 → EReal)
    (W2 : Fin D2 → Fin D3 → EReal) (W3 : Fin D3 → Fin L → EReal) : Fin N → Fin L → EReal :=
  logSoftmaxNodes (layer A (layer A (layer A X W1) W2) W3)

/-- A rank-2 array as a function of its two coordinates. -/
def toFn2 {n0 n1 : ℕ} (V : (⟨2, ![n0, n1]⟩ : Shape).Idx → EReal) : Fin n0 → Fin n1 → EReal := fun a b => V (ix2 a b)

/-- A rank-3 array as a function of its three coordinates. -/
def toFn3 {n0 n1 n2 : ℕ} (V : (⟨3, ![n0, n1, n2]⟩ : Shape).Idx → EReal) : Fin n0 → Fin n1 → Fin n2 → EReal :=
  fun a b c => V (ix3 a b c)

theorem toFn2_apply {n0 n1 : ℕ} (V : (⟨2, ![n0, n1]⟩ : Shape).Idx → EReal) (a : Fin n0) (b : Fin n1) :
    toFn2 V a b = V (ix2 a b) := rfl

theorem toFn3_apply {n0 n1 n2 : ℕ} (V : (⟨3, ![n0, n1, n2]⟩ : Shape).Idx → EReal) (a : Fin n0) (b : Fin n1) (c : Fin n2) :
    toFn3 V a b c = V (ix3 a b c) := rfl

/-- The batched network as one array: graph `b`'s result from graph `b`'s features and adjacency and the shared weights. -/
def gcnArray (X : (⟨3, ![8, 2048, 256]⟩ : Shape).Idx → EReal) (Adj : (⟨3, ![8, 2048, 2048]⟩ : Shape).Idx → EReal)
    (W1 W2 : (⟨2, ![256, 256]⟩ : Shape).Idx → EReal) (W3 : (⟨2, ![256, 128]⟩ : Shape).Idx → EReal) :
    (⟨3, ![8, 2048, 128]⟩ : Shape).Idx → EReal :=
  fun i => gcn (toFn3 Adj (i 0)) (toFn3 X (i 0)) (toFn2 W1) (toFn2 W2) (toFn2 W3) (i 1) (i 2)

/-- The maximum from negative infinity already dominates negative infinity. -/
theorem max_negInf_colMax {N L : ℕ} (H : Fin N → Fin L → EReal) (l : Fin L) : max negInf (colMax H l) = colMax H l := by
  unfold colMax
  exact max_eq_right ((Finset.le_fold_max (c := negInf)).2 (Or.inl le_rfl))

end Cert.Gcn

end
-- ==== Proof.LibPlainMatmul.lean ====
/-
  A plain matrix product read at an entry, on the extended reals.

  For the dimension numbers of an `M × K` by `K × N` product (`DotDims.plain`: contract the left operand's columns with the
  right operand's rows, no batch axis), the product accumulated into the zero matrix has at `(i, j)` the sum over the one
  contraction coordinate `k` of `a (i, k) · b (k, j)`. The contraction index set has one axis; it is re-indexed by that
  axis's coordinate, and the operand indices the dimension numbers build from `(i, j)` and `k` are `(i, k)` and `(k, j)`.
  Stated for all extents at once, so that one lemma serves every tile shape.
-/
import Idealize.ShloMosaic.PureOps.Ideal.Laws
import Idealize.ShloMosaic.Lib.ValueIdx

noncomputable section

open scoped BigOperators

namespace Cert.LibPlainMatmul

open Idealize.ShloMosaic Idealize.ShloMosaic.ValueIdx

variable (M K N : ℕ)

/-- The left operand's row is the result's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the result's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at entry `(i, j)`: `∑ k, a (i, k) · b (k, j)`. -/
theorem matmul_zero_apply (a : FVec Ideal ⟨2, ![M, K]⟩ .f32) (b : FVec Ideal ⟨2, ![K, N]⟩ .f32) (i : Fin M) (j : Fin N) :
    matmul (DotDims.plain M K N) none a b (constant (F := Ideal) ⟨2, ![M, N]⟩ .f32 0x00000000#32) (ix2 i j)
      = ∑ k : Fin K, a (ix2 i k) * b (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun ax => Fin.ext (by
      match ax with
      | ⟨0, _⟩ => exact lhs_row M K N _ _
      | ⟨1, _⟩ => exact (lhs_col M K N _ _).trans hk)
  have er : (DotDims.plain M K N).rhsIdx (ix2 i j) ((contrEquiv1 (DotDims.plain M K N) K rfl rfl).symm k) = ix2 k j :=
    funext fun ax => Fin.ext (by
      match ax with
      | ⟨0, _⟩ => exact (rhs_row M K N _ _).trans hk
      | ⟨1, _⟩ => exact rhs_col M K N _ _)
  rw [el, er]

end Cert.LibPlainMatmul

end
-- ==== Proof.KernelLayer.lean ====
/-
  What one grid step of the kernel leaves in its output block, entry by entry.

  A grid step holds one graph: its feature block X (2048 × 256), its adjacency block A (2048 × 2048) and the three weight
  matrices. Each layer first forms the support H · W as one matrix product, then multiplies the adjacency by it one slab
  of 256 ROWS at a time, clips each slab's product below at zero and lays the eight slabs end to end. Row n of the result
  lies in slab n / 256 at local row n % 256, and the slab's row is row n of A, so entry (n, e) is
  max (∑ k, A n k · S k e) 0 whatever the slab: cutting the rows changes no sum. The third layer's result is then
  shifted by its column maximum, exponentiated, summed down each column, and the logarithm of the sum subtracted.
-/
import proofs.«136701_g83425444758234_cont_9to1c4b_234_10_alg».proof.Proof.Gen.KernelIdeal.Value
import proofs.«136701_g83425444758234_cont_9to1c4b_234_10_alg».proof.Proof.Spec
import proofs.«136701_g83425444758234_cont_9to1c4b_234_10_alg».proof.Proof.LibPlainMatmul
import Idealize.ShloMosaic.Lib.ValueLayout
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.Gcn

/-! ## Layout: a leading unit axis dropped -/

/-- A `[1, a, b]` block read as a matrix is its one slice. -/
theorem toFn2_dropUnit {a b : ℕ} (x : (⟨3, ![1, a, b]⟩ : Shape).Idx → EReal)
    (h : (⟨3, ![1, a, b]⟩ : Shape).ShapeCasts ⟨2, ![a, b]⟩) :
    toFn2 (shapeCast ⟨2, ![a, b]⟩ x h) = toFn3 x 0 := by
  funext i j
  exact shapeCast_1ab_ab_apply x h i j

/-! ## The support: one matrix product -/

/-- `H · W` into the zero accumulator is the support, for any extents. -/
theorem support_fn (M K N : ℕ) (H : FVec Ideal ⟨2, ![M, K]⟩ .f32) (W : FVec Ideal ⟨2, ![K, N]⟩ .f32) :
    toFn2 (matmul (DotDims.plain M K N) none H W (constant (F := Ideal) ⟨2, ![M, N]⟩ .f32 0x00000000#32))
      = support (toFn2 H) (toFn2 W) := by
  funext n e
  exact LibPlainMatmul.matmul_zero_apply M K N H W n e

/-! ## One slab of the aggregation -/

/-- Rows `o … o + 255` of the adjacency times the support, clipped below at zero. -/
abbrev slabOf {E : ℕ} (A : FVec Ideal ⟨2, ![2048, 2048]⟩ .f32) (S : FVec Ideal ⟨2, ![2048, E]⟩ .f32) (o : ℕ)
    (h : (⟨2, ![2048, 2048]⟩ : Shape).Slices ![o, 0] ⟨2, ![256, 2048]⟩) : FVec Ideal ⟨2, ![256, E]⟩ .f32 :=
  maximumf (matmul (DotDims.plain 256 2048 E) none (extractStridedSlice ⟨2, ![256, 2048]⟩ ![o, 0] A h) S
      (constant (F := Ideal) ⟨2, ![256, E]⟩ .f32 0x00000000#32))
    (broadcast ⟨2, ![256, E]⟩ (Scalar.ofBits (F := Ideal) .f32 0x00000000#32))

/-- Local row `r` of the slab from `o` is row `n = o + r` of the whole aggregation. -/
theorem slabOf_apply {E : ℕ} (A : FVec Ideal ⟨2, ![2048, 2048]⟩ .f32) (S : FVec Ideal ⟨2, ![2048, E]⟩ .f32) (o : ℕ)
    (h : (⟨2, ![2048, 2048]⟩ : Shape).Slices ![o, 0] ⟨2, ![256, 2048]⟩) (r : Fin 256) (e : Fin E) (n : Fin 2048)
    (hn : n.val = o + r.val) :
    slabOf A S o h (ix2 r e) = aggregate (toFn2 A) (toFn2 S) n e := by
  show max (matmul (DotDims.plain 256 2048 E) none (extractStridedSlice ⟨2, ![256, 2048]⟩ ![o, 0] A h) S
      (constant (F := Ideal) ⟨2, ![256, E]⟩ .f32 0x00000000#32) (ix2 r e)) (Ideal.ofBits .f32 0x00000000#32)
    = max (∑ k : Fin 2048, A (ix2 n k) * S (ix2 k e)) 0
  rw [LibPlainMatmul.matmul_zero_apply, Ideal.ofBits_zero_f32]
  refine congrArg (fun z => max z 0) (Finset.sum_congr rfl fun k _ => ?_)
  rw [slice2_axis0_apply o A h r k n hn]

/-- Piece `k` of slabs laid end to end along the rows, read at a row of that slab's span. -/
theorem rows_piece_apply {E : ℕ} (A : FVec Ideal ⟨2, ![2048, 2048]⟩ .f32) (S : FVec Ideal ⟨2, ![2048, E]⟩ .f32)
    (xs : List ((s : Shape) × (s.Idx → EReal))) (hc : Shape.Concatenates (xs.map (·.1)) ⟨2, ![2048, E]⟩ 0)
    (k : ℕ) (hk : k < xs.length) (o : ℕ) (h : (⟨2, ![2048, 2048]⟩ : Shape).Slices ![o, 0] ⟨2, ![256, 2048]⟩)
    (hx : xs[k] = ⟨⟨2, ![256, E]⟩, slabOf A S o h⟩)
    (hpre : (((xs.take k).map (·.1)).map fun s =>
      if hh : s.rank = (⟨2, ![2048, E]⟩ : Shape).rank then s.size ((0 : Fin (⟨2, ![2048, E]⟩ : Shape).rank).cast hh.symm) else 0).sum = o)
    (n : Fin 2048) (e : Fin E) (hlo : o ≤ n.val) (hhi : n.val < o + 256) :
    concatenate ⟨2, ![2048, E]⟩ 0 xs hc (ix2 n e) = aggregate (toFn2 A) (toFn2 S) n e := by
  refine (concatenate_apply_piece (0 : Fin 2) xs hc (ix2 n e) k hk _ _ hx rfl o hpre
    (ix2 (⟨n.val - o, by omega⟩ : Fin 256) e) (fun b hb => ?_) ?_).trans ?_
  · match b with
    | ⟨0, _⟩ => exact absurd rfl hb
    | ⟨1, _⟩ => rfl
  · show o + (n.val - o) = n.val
    omega
  · exact slabOf_apply A S o h _ e n (by show n.val = o + (n.val - o); omega)

/-! ## The aggregation: eight slabs end to end -/

/-- The eight slabs of the 256-column aggregation, as the kernel lays them out. -/
abbrev aggV256 (A : FVec Ideal S2048x2048 .f32) (S : FVec Ideal S2048x256 .f32) : FVec Ideal S2048x256 .f32 :=
  concatenate S2048x256 0
    [⟨S256x256, slabOf A S 0 slices_S2048x2048_o0_0_S256x2048⟩, ⟨S256x256, slabOf A S 256 slices_S2048x2048_o256_0_S256x2048⟩,
     ⟨S256x256, slabOf A S 512 slices_S2048x2048_o512_0_S256x2048⟩, ⟨S256x256, slabOf A S 768 slices_S2048x2048_o768_0_S256x2048⟩,
     ⟨S256x256, slabOf A S 1024 slices_S2048x2048_o1024_0_S256x2048⟩, ⟨S256x256, slabOf A S 1280 slices_S2048x2048_o1280_0_S256x2048⟩,
     ⟨S256x256, slabOf A S 1536 slices_S2048x2048_o1536_0_S256x2048⟩, ⟨S256x256, slabOf A S 1792 slices_S2048x2048_o1792_0_S256x2048⟩]
    concatenates_S256x256_S256x256_S256x256_S256x256_S256x256_S256x256_S256x256_S256x256_S2048x256_d0

/-- The eight slabs of the 128-column aggregation. -/
abbrev aggV128 (A : FVec Ideal S2048x2048 .f32) (S : FVec Ideal S2048x128 .f32) : FVec Ideal S2048x128 .f32 :=
  concatenate S2048x128 0
    [⟨S256x128, slabOf A S 0 slices_S2048x2048_o0_0_S256x2048⟩, ⟨S256x128, slabOf A S 256 slices_S2048x2048_o256_0_S256x2048⟩,
     ⟨S256x128, slabOf A S 512 slices_S2048x2048_o512_0_S256x2048⟩, ⟨S256x128, slabOf A S 768 slices_S2048x2048_o768_0_S256x2048⟩,
     ⟨S256x128, slabOf A S 1024 slices_S2048x2048_o1024_0_S256x2048⟩, ⟨S256x128, slabOf A S 1280 slices_S2048x2048_o1280_0_S256x2048⟩,
     ⟨S256x128, slabOf A S 1536 slices_S2048x2048_o1536_0_S256x2048⟩, ⟨S256x128, slabOf A S 1792 slices_S2048x2048_o1792_0_S256x2048⟩]
    concatenates_S256x128_S256x128_S256x128_S256x128_S256x128_S256x128_S256x128_S256x128_S2048x128_d0

/-- Eight slabs end to end are the whole aggregation: row `n` lies in the slab its 256-row span holds. -/
theorem eight_slabs_fn {E : ℕ} (A : FVec Ideal ⟨2, ![2048, 2048]⟩ .f32) (S : FVec Ideal ⟨2, ![2048, E]⟩ .f32)
    (h0 : (⟨2, ![2048, 2048]⟩ : Shape).Slices ![0, 0] ⟨2, ![256, 2048]⟩) (h1 : (⟨2, ![2048, 2048]⟩ : Shape).Slices ![256, 0] ⟨2, ![256, 2048]⟩)
    (h2 : (⟨2, ![2048, 2048]⟩ : Shape).Slices ![512, 0] ⟨2, ![256, 2048]⟩) (h3 : (⟨2, ![2048, 2048]⟩ : Shape).Slices ![768, 0] ⟨2, ![256, 2048]⟩)
    (h4 : (⟨2, ![2048, 2048]⟩ : Shape).Slices ![1024, 0] ⟨2, ![256, 2048]⟩) (h5 : (⟨2, ![2048, 2048]⟩ : Shape).Slices ![1280, 0] ⟨2, ![256, 2048]⟩)
    (h6 : (⟨2, ![2048, 2048]⟩ : Shape).Slices ![1536, 0] ⟨2, ![256, 2048]⟩) (h7 : (⟨2, ![2048, 2048]⟩ : Shape).Slices ![1792, 0] ⟨2, ![256, 2048]⟩)
    (hc : Shape.Concatenates (([⟨⟨2, ![256, E]⟩, slabOf A S 0 h0⟩, ⟨⟨2, ![256, E]⟩, slabOf A S 256 h1⟩, ⟨⟨2, ![256, E]⟩, slabOf A S 512 h2⟩,
        ⟨⟨2, ![256, E]⟩, slabOf A S 768 h3⟩, ⟨⟨2, ![256, E]⟩, slabOf A S 1024 h4⟩, ⟨⟨2, ![256, E]⟩, slabOf A S 1280 h5⟩,
        ⟨⟨2, ![256, E]⟩, slabOf A S 1536 h6⟩, ⟨⟨2, ![256, E]⟩, slabOf A S 1792 h7⟩] : List ((s : Shape) × (s.Idx → EReal))).map (·.1))
      ⟨2, ![2048, E]⟩ 0) :
    toFn2 (concatenate ⟨2, ![2048, E]⟩ 0 [⟨⟨2, ![256, E]⟩, slabOf A S 0 h0⟩, ⟨⟨2, ![256, E]⟩, slabOf A S 256 h1⟩,
        ⟨⟨2, ![256, E]⟩, slabOf A S 512 h2⟩, ⟨⟨2, ![256, E]⟩, slabOf A S 768 h3⟩, ⟨⟨2, ![256, E]⟩, slabOf A S 1024 h4⟩,
        ⟨⟨2, ![256, E]⟩, slabOf A S 1280 h5⟩, ⟨⟨2, ![256, E]⟩, slabOf A S 1536 h6⟩, ⟨⟨2, ![256, E]⟩, slabOf A S 1792 h7⟩] hc)
      = aggregate (toFn2 A) (toFn2 S) := by
  funext n e
  have hn := n.isLt
  show concatenate ⟨2, ![2048, E]⟩ 0 _ hc (ix2 n e) = _
  by_cases c1 : n.val < 256
  · exact rows_piece_apply A S _ hc 0 (by simp) 0 h0 rfl rfl n e (by omega) (by omega)
  by_cases c2 : n.val < 512
  · exact rows_piece_apply A S _ hc 1 (by simp) 256 h1 rfl rfl n e (by omega) (by omega)
  by_cases c3 : n.val < 768
  · exact rows_piece_apply A S _ hc 2 (by simp) 512 h2 rfl rfl n e (by omega) (by omega)
  by_cases c4 : n.val < 1024
  · exact rows_piece_apply A S _ hc 3 (by simp) 768 h3 rfl rfl n e (by omega) (by omega)
  by_cases c5 : n.val < 1280
  · exact rows_piece_apply A S _ hc 4 (by simp) 1024 h4 rfl rfl n e (by omega) (by omega)
  by_cases c6 : n.val < 1536
  · exact rows_piece_apply A S _ hc 5 (by simp) 1280 h5 rfl rfl n e (by omega) (by omega)
  by_cases c7 : n.val < 1792
  · exact rows_piece_apply A S _ hc 6 (by simp) 1536 h6 rfl rfl n e (by omega) (by omega)
  · exact rows_piece_apply A S _ hc 7 (by simp) 1792 h7 rfl rfl n e (by omega) (by omega)

theorem aggV256_fn (A : FVec Ideal S2048x2048 .f32) (S : FVec Ideal S2048x256 .f32) :
    toFn2 (aggV256 A S) = aggregate (toFn2 A) (toFn2 S) :=
  eight_slabs_fn A S _ _ _ _ _ _ _ _ _

theorem aggV128_fn (A : FVec Ideal S2048x2048 .f32) (S : FVec Ideal S2048x128 .f32) :
    toFn2 (aggV128 A S) = aggregate (toFn2 A) (toFn2 S) :=
  eight_slabs_fn A S _ _ _ _ _ _ _ _ _

end Cert.KernelIdeal.Block

end
-- ==== Proof.KernelBlock.lean ====
/-
  The kernel body's stores, read as the network on one graph.

  The body's one store writes, at block index (0, n, l), the third layer's value shifted by its column maximum, less the
  logarithm of the column sum of the exponentials of the shifted values. The three layers are read off the body's named
  values one at a time: each is a support followed by the eight-slab aggregation, so each is `layer` of the adjacency
  block, the previous layer and a weight matrix; the shifted value reads the column maximum as a fold of `max` from
  negative infinity down the node axis.
-/
import proofs.«136701_g83425444758234_cont_9to1c4b_234_10_alg».proof.Proof.KernelLayer

noncomputable section

open scoped BigOperators

namespace Cert.KernelIdeal.Block

open Cert.KernelIdeal Cert.KernelIdeal.Gen Idealize.ShloMosaic Idealize.ShloMosaic.ValueIdx Cert.Gcn

/-! ## The shift by the column maximum -/

/-- A matrix less its column maxima spread over the rows, as the body computes it. -/
abbrev shiftV (H : FVec Ideal S2048x128 .f32) : FVec Ideal S2048x128 .f32 :=
  subf H (broadcastTo S2048x128 (shapeCast S1x128
    (multiReduction .maximumf [0] S128 H 0xFF800000#32 reduces_S2048x128_S128 (.inl rfl) rfl) shapeCasts_S128_S1x128)
    broadcasts_S1x128_S2048x128)

/-- The node coordinate put back into a column index. -/
theorem lift_col (l : Fin 128) (k : Fin 2048) : reduces_S2048x128_S128.lift (ix1 l) k = ix2 k l := by
  funext c
  apply Fin.ext
  match c with
  | ⟨0, _⟩ => rfl
  | ⟨1, _⟩ => rfl

theorem shiftV_fn (H : FVec Ideal S2048x128 .f32) : toFn2 (shiftV H) = shifted (toFn2 H) := by
  funext n l
  show H (ix2 n l) - broadcastTo S2048x128 (shapeCast S1x128
      (multiReduction .maximumf [0] S128 H 0xFF800000#32 reduces_S2048x128_S128 (.inl rfl) rfl) shapeCasts_S128_S1x128)
      broadcasts_S1x128_S2048x128 (ix2 n l) = H (ix2 n l) - colMax (toFn2 H) l
  refine congrArg (fun z => H (ix2 n l) - z) ?_
  refine (broadcastTo_1b_ab_apply _ _ n l).trans ?_
  refine (shapeCast_a_1a_apply _ _ (0 : Fin 1) l).trans ?_
  refine (Ideal.multiReduction_maximumf_single H 0xFF800000#32 reduces_S2048x128_S128 (.inl rfl) rfl (ix1 l)).trans ?_
  unfold colMax
  refine congrArg (fun f => (Finset.univ : Finset (Fin 2048)).fold max negInf f) (funext fun k => ?_)
  exact congrArg H (lift_col l k)

/-! ## The body's named values -/

/-- The first support. -/
theorem pay3_fn (v0 : FVec Ideal S1x2048x256 .f32) (v4 : FVec Ideal S256x256 .f32) :
    toFn2 (k0_pay3 (F := Ideal) v0 v4) = support (toFn3 v0 0) (toFn2 v4) := by
  show toFn2 (matmul (DotDims.plain 2048 256 256) none (shapeCast S2048x256 v0 shapeCasts_S1x2048x256_S2048x256) v4
    (constant (F := Ideal) S2048x256 .f32 0x00000000#32)) = _
  rw [support_fn, toFn2_dropUnit]

/-- The first layer's eight slabs laid end to end. -/
theorem layer1_eq (v0 : FVec Ideal S1x2048x256 .f32) (v2 : FVec Ideal S1x2048x2048 .f32) (v4 : FVec Ideal S256x256 .f32) :
    concatenate S2048x256 0 [⟨S256x256, k0_pay4 (F := Ideal) v0 v2 v4⟩, ⟨S256x256, k0_pay5 v0 v2 v4⟩, ⟨S256x256, k0_pay6 v0 v2 v4⟩,
        ⟨S256x256, k0_pay7 v0 v2 v4⟩, ⟨S256x256, k0_pay8 v0 v2 v4⟩, ⟨S256x256, k0_pay9 v0 v2 v4⟩, ⟨S256x256, k0_pay10 v0 v2 v4⟩,
        ⟨S256x256, maximumf (matmul dot_S256x2048_S2048x256_S256x256_1_0_0_1_n_n none
            (extractStridedSlice S256x2048 ![1792, 0] (k0_pay2 v2) slices_S2048x2048_o1792_0_S256x2048) (k0_pay3 v0 v4)
            (broadcast S256x256 (Scalar.ofBits .f32 0x00000000#32)))
          (broadcast S256x256 (Scalar.ofBits .f32 0x00000000#32))⟩]
        concatenates_S256x256_S256x256_S256x256_S256x256_S256x256_S256x256_S256x256_S256x256_S2048x256_d0
      = aggV256 (k0_pay2 v2) (k0_pay3 v0 v4) := rfl

/-- The second layer, from the first layer's slabs. -/
theorem pay12_eq (A : FVec Ideal S2048x2048 .f32) (S : FVec Ideal S2048x256 .f32)
    (v9 v13 v17 v21 v25 v29 v33 : FVec Ideal S256x256 .f32) (v34 : FVec Ideal S256x2048 .f32) (c : FVec Ideal S256x256 .f32)
    (v39 : FVec Ideal S256x256 .f32) :
    k0_pay12 (F := Ideal) A S v9 v13 v17 v21 v25 v29 v33 v34 c v39
      = aggV256 A (matmul (DotDims.plain 2048 256 256) none
          (concatenate S2048x256 0 [⟨S256x256, v9⟩, ⟨S256x256, v13⟩, ⟨S256x256, v17⟩, ⟨S256x256, v21⟩, ⟨S256x256, v25⟩,
            ⟨S256x256, v29⟩, ⟨S256x256, v33⟩,
            ⟨S256x256, maximumf (matmul dot_S256x2048_S2048x256_S256x256_1_0_0_1_n_n none v34 S c) (broadcast S256x256 (Scalar.ofBits .f32 0x00000000#32))⟩]
            concatenates_S256x256_S256x256_S256x256_S256x256_S256x256_S256x256_S256x256_S256x256_S2048x256_d0)
          v39 (constant (F := Ideal) S2048x256 .f32 0x00000000#32)) := rfl

/-- The third layer, shifted by its column maximum. -/
theorem pay13_eq (A : FVec Ideal S2048x2048 .f32) (H : FVec Ideal S2048x256 .f32) (W : FVec Ideal S256x128 .f32) :
    k0_pay13 (F := Ideal) A H W
      = shiftV (aggV128 A (matmul (DotDims.plain 2048 256 128) none H W (constant (F := Ideal) S2048x128 .f32 0x00000000#32))) := rfl

/-! ## The three layers and the shift, as the body nests them -/

/-- The adjacency block as a matrix. -/
abbrev adjV (P0 : FVec Ideal S1x2048x2048 .f32) : FVec Ideal S2048x2048 .f32 := shapeCast S2048x2048 P0 shapeCasts_S1x2048x2048_S2048x2048

/-- The first layer of the block. -/
abbrev h1V (P0 : FVec Ideal S1x2048x2048 .f32) (P1 : FVec Ideal S1x2048x256 .f32) (P2 : FVec Ideal S256x256 .f32) : FVec Ideal S2048x256 .f32 :=
  aggV256 (adjV P0) (k0_pay3 P1 P2)

/-- The second layer of the block. -/
abbrev h2V (P0 : FVec Ideal S1x2048x2048 .f32) (P1 : FVec Ideal S1x2048x256 .f32) (P2 P3 : FVec Ideal S256x256 .f32) : FVec Ideal S2048x256 .f32 :=
  aggV256 (adjV P0) (matmul (DotDims.plain 2048 256 256) none (h1V P0 P1 P2) P3 (constant (F := Ideal) S2048x256 .f32 0x00000000#32))

/-- The third layer of the block, shifted: the value the store's payload is built from. -/
abbrev shiftedV (P0 : FVec Ideal S1x2048x2048 .f32) (P1 : FVec Ideal S1x2048x256 .f32) (P2 : FVec Ideal S256x256 .f32) (P3 : FVec Ideal S256x256 .f32) (P4 : FVec Ideal S256x128 .f32) : FVec Ideal S2048x128 .f32 :=
  (k0_pay13 (shapeCast S2048x2048 P0 shapeCasts_S1x2048x2048_S2048x2048) (k0_pay12 (shapeCast S2048x2048 P0 shapeCasts_S1x2048x2048_S2048x2048) (k0_pay3 P1 P2) (k0_pay4 P1 P0 P2) (k0_pay5 P1 P0 P2) (k0_pay6 P1 P0 P2) (k0_pay7 P1 P0 P2) (k0_pay8 P1 P0 P2) (k0_pay9 P1 P0 P2) (k0_pay10 P1 P0 P2) (extractStridedSlice S256x2048 ![1792, 0] (shapeCast S2048x2048 P0 shapeCasts_S1x2048x2048_S2048x2048) slices_S2048x2048_o1792_0_S256x2048) (broadcast S256x256 (Scalar.ofBits .f32 0x00000000#32)) P3) P4)

theorem shiftedV_eq (P0 : FVec Ideal S1x2048x2048 .f32) (P1 : FVec Ideal S1x2048x256 .f32) (P2 : FVec Ideal S256x256 .f32) (P3 : FVec Ideal S256x256 .f32) (P4 : FVec Ideal S256x128 .f32) :
    shiftedV P0 P1 P2 P3 P4
      = shiftV (aggV128 (adjV P0) (matmul (DotDims.plain 2048 256 128) none (h2V P0 P1 P2 P3) P4 (constant (F := Ideal) S2048x128 .f32 0x00000000#32))) := rfl

theorem h1V_fn (P0 : FVec Ideal S1x2048x2048 .f32) (P1 : FVec Ideal S1x2048x256 .f32) (P2 : FVec Ideal S256x256 .f32) :
    toFn2 (h1V P0 P1 P2) = layer (toFn3 P0 0) (toFn3 P1 0) (toFn2 P2) := by
  refine (aggV256_fn (adjV P0) (k0_pay3 P1 P2)).trans ?_
  rw [pay3_fn, toFn2_dropUnit]
  rfl

theorem h2V_fn (P0 : FVec Ideal S1x2048x2048 .f32) (P1 : FVec Ideal S1x2048x256 .f32) (P2 P3 : FVec Ideal S256x256 .f32) :
    toFn2 (h2V P0 P1 P2 P3) = layer (toFn3 P0 0) (layer (toFn3 P0 0) (toFn3 P1 0) (toFn2 P2)) (toFn2 P3) := by
  refine (aggV256_fn (adjV P0) _).trans ?_
  rw [support_fn, h1V_fn, toFn2_dropUnit]
  rfl

theorem shiftedV_fn (P0 : FVec Ideal S1x2048x2048 .f32) (P1 : FVec Ideal S1x2048x256 .f32) (P2 : FVec Ideal S256x256 .f32) (P3 : FVec Ideal S256x256 .f32) (P4 : FVec Ideal S256x128 .f32) :
    toFn2 (shiftedV P0 P1 P2 P3 P4)
      = shifted (layer (toFn3 P0 0) (layer (toFn3 P0 0) (layer (toFn3 P0 0) (toFn3 P1 0) (toFn2 P2)) (toFn2 P3)) (toFn2 P4)) := by
  rw [shiftedV_eq]
  refine (shiftV_fn _).trans (congrArg shifted ?_)
  refine (aggV128_fn (adjV P0) _).trans ?_
  rw [support_fn, h2V_fn, toFn2_dropUnit]
  rfl

/-! ## The block -/

/-- WHAT THE BODY LEAVES IN ITS OUTPUT BLOCK, at block index (0, n, l): the network on the grid step's graph, at node `n`
    and label `l`. -/
theorem block_eq (P0 : FVec Ideal S1x2048x2048 .f32) (P1 : FVec Ideal S1x2048x256 .f32) (P2 : FVec Ideal S256x256 .f32) (P3 : FVec Ideal S256x256 .f32) (P4 : FVec Ideal S256x128 .f32) (z : Fin 1) (n : Fin 2048) (l : Fin 128) :
    Cert.KernelIdeal.Value.E5 (F := Ideal) P0 P1 P2 P3 P4 (ix3 z n l)
      = gcn (toFn3 P0 0) (toFn3 P1 0) (toFn2 P2) (toFn2 P3) (toFn2 P4) n l := by
  have e0 : Cert.KernelIdeal.Value.ix5_0 (ix3 z n l) = ix2 n l := by
    funext a; apply Fin.ext
    match a with
    | ⟨0, _⟩ => rfl
    | ⟨1, _⟩ => rfl
  have e1 : Cert.KernelIdeal.Value.ix5_1 (ix3 z n l) = ix1 l := by
    funext a; apply Fin.ext
    match a with
    | ⟨0, _⟩ => rfl
  have hT := shiftedV_fn P0 P1 P2 P3 P4
  show shiftedV P0 P1 P2 P3 P4 (Cert.KernelIdeal.Value.ix5_0 (ix3 z n l))
      - Ideal.log (multiReduction .add [0] S128 (exp (shiftedV P0 P1 P2 P3 P4)) 0x00000000#32 reduces_S2048x128_S128 (.inl rfl) rfl
          (Cert.KernelIdeal.Value.ix5_1 (ix3 z n l)))
    = gcn (toFn3 P0 0) (toFn3 P1 0) (toFn2 P2) (toFn2 P3) (toFn2 P4) n l
  generalize shiftedV P0 P1 P2 P3 P4 = T at hT
  rw [e0, e1]
  unfold gcn logSoftmaxNodes
  rw [← hT]
  refine congrArg (fun w => T (ix2 n l) - Ideal.log w) ?_
  refine (Ideal.multiReduction_add_single (exp T) 0x00000000#32 reduces_S2048x128_S128 (.inl rfl) rfl (ix1 l)).trans ?_
  refine Finset.sum_congr rfl fun k _ => ?_
  exact congrArg (fun i => Ideal.exp (T i)) (lift_col l k)

end Cert.KernelIdeal.Block

end
-- ==== Proof.KernelArray.lean ====
/-
  From the blocks to the array: what the output holds after the whole run.

  The grid has one point per graph. At point `t` the feature and adjacency windows hold graph `t`'s slices of their arrays,
  the three weight windows hold their whole arrays, and the body writes the network's result on those into the output
  window's block, which is written back to graph `t`'s slice of the output array. The eight slices tile the array — entry
  (b, n, l) lies in point `b`'s block — so after the run the array is, everywhere, the network on each graph.
-/
import proofs.«136701_g83425444758234_cont_9to1c4b_234_10_alg».proof.Proof.KernelBlock

set_option maxRecDepth 16384

noncomputable section

open scoped BigOperators

namespace Cert.KernelIdeal.Array

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The output block from the input blocks -/

/-- The body's stores, over any input blocks: the network on the blocks' one graph. -/
theorem out_block_eq (x0 : Vec Ideal S1x2048x256 .f32) (x1 : Vec Ideal S1x2048x2048 .f32) (x2 x3 : Vec Ideal S256x256 .f32)
    (x4 : Vec Ideal S256x128 .f32) (z : Fin 1) (n : Fin 2048) (l : Fin 128) :
    out0_5 (F := Ideal) x0 x1 x2 x3 x4 (ix3 z n l) = gcn (toFn3 x1 0) (toFn3 x0 0) (toFn2 x2) (toFn2 x3) (toFn2 x4) n l := by
  unfold out0_5
  refine (Cert.KernelIdeal.Value.canon5_eq _ _ _ _ _ (ix3 z n l)).trans ?_
  have e0 : View.ld x0 r0_0 = x0 := View.ld_unit_zero (S := S1x2048x256) hz3 _ x0
  have e1 : View.ld x1 r0_1 = x1 := View.ld_unit_zero (S := S1x2048x2048) hz3 _ x1
  have e2 : View.ld x2 r0_2 = x2 := View.ld_unit_zero (S := S256x256) hz2 _ x2
  have e3 : View.ld x3 r0_2 = x3 := View.ld_unit_zero (S := S256x256) hz2 _ x3
  have e4 : View.ld x4 r0_3 = x4 := View.ld_unit_zero (S := S256x128) hz2 _ x4
  rw [e0, e1, e2, e3, e4]
  exact Block.block_eq x1 x0 x2 x3 x4 z n l

/-! ## The windows' blocks at a point -/

/-- Where each window's block sits at grid point `t`: the feature, adjacency and output windows at graph `t`, the weight
    windows at their one block (decided over the eight points). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The graph a grid point works on. -/
abbrev graphOf (t : Fin cfg0.N) : Fin 8 := ⟨t.val, t.isLt⟩

/-- The input windows' blocks at a point, at their literal shapes. -/
abbrev xB (c : Dev nD) (t : Fin cfg0.N) : Vec Ideal S1x2048x256 .f32 := iblk m c 0 t
abbrev aB (c : Dev nD) (t : Fin cfg0.N) : Vec Ideal S1x2048x2048 .f32 := iblk m c 1 t
abbrev w1B (c : Dev nD) (t : Fin cfg0.N) : Vec Ideal S256x256 .f32 := iblk m c 2 t
abbrev w2B (c : Dev nD) (t : Fin cfg0.N) : Vec Ideal S256x256 .f32 := iblk m c 3 t
abbrev w3B (c : Dev nD) (t : Fin cfg0.N) : Vec Ideal S256x128 .f32 := iblk m c 4 t

/-- The arrays as the region finds them, at their literal shapes. -/
abbrev xA (c : Dev nD) : Vec Ideal S8x2048x256 .f32 := V m c main_arg0
abbrev aA (c : Dev nD) : Vec Ideal S8x2048x2048 .f32 := V m c main_arg1
abbrev w1A (c : Dev nD) : Vec Ideal S256x256 .f32 := V m c main_arg2
abbrev w2A (c : Dev nD) : Vec Ideal S256x256 .f32 := V m c main_arg3
abbrev w3A (c : Dev nD) : Vec Ideal S256x128 .f32 := V m c main_arg4

theorem xB_fn (c : Dev nD) (t : Fin cfg0.N) : toFn3 (xB m c t) 0 = toFn3 (xA m c) (graphOf t) := by
  funext n d
  show V m c main_arg0 (((cfg0.win 0).blk t).view.emb (ix3 (0 : Fin 1) n d)) = V m c main_arg0 (ix3 (graphOf t) n d)
  obtain ⟨e0, e1, e2, -⟩ := idx_facts t
  refine congrArg _ (funext fun a => Fin.ext ?_)
  match a with
  | ⟨0, _⟩ => show win0_0.index t (0 : Fin 3) * 1 + 1 * 0 = t.val; omega
  | ⟨1, _⟩ => show win0_0.index t (1 : Fin 3) * 2048 + 1 * n.val = n.val; omega
  | ⟨2, _⟩ => show win0_0.index t (2 : Fin 3) * 256 + 1 * d.val = d.val; omega

theorem aB_fn (c : Dev nD) (t : Fin cfg0.N) : toFn3 (aB m c t) 0 = toFn3 (aA m c) (graphOf t) := by
  funext n k
  show V m c main_arg1 (((cfg0.win 1).blk t).view.emb (ix3 (0 : Fin 1) n k)) = V m c main_arg1 (ix3 (graphOf t) n k)
  obtain ⟨-, -, -, e0, e1, e2, -⟩ := idx_facts t
  refine congrArg _ (funext fun a => Fin.ext ?_)
  match a with
  | ⟨0, _⟩ => show win0_1.index t (0 : Fin 3) * 1 + 1 * 0 = t.val; omega
  | ⟨1, _⟩ => show win0_1.index t (1 : Fin 3) * 2048 + 1 * n.val = n.val; omega
  | ⟨2, _⟩ => show win0_1.index t (2 : Fin 3) * 2048 + 1 * k.val = k.val; omega

theorem w1B_fn (c : Dev nD) (t : Fin cfg0.N) : toFn2 (w1B m c t) = toFn2 (w1A m c) := by
  funext d e
  show V m c main_arg2 (((cfg0.win 2).blk t).view.emb (ix2 d e)) = V m c main_arg2 (ix2 d e)
  obtain ⟨-, -, -, -, -, -, e0, e1, -⟩ := idx_facts t
  refine congrArg _ (funext fun a => Fin.ext ?_)
  match a with
  | ⟨0, _⟩ => show win0_2.index t (0 : Fin 2) * 256 + 1 * d.val = d.val; omega
  | ⟨1, _⟩ => show win0_2.index t (1 : Fin 2) * 256 + 1 * e.val = e.val; omega

theorem w2B_fn (c : Dev nD) (t : Fin cfg0.N) : toFn2 (w2B m c t) = toFn2 (w2A m c) := by
  funext d e
  show V m c main_arg3 (((cfg0.win 3).blk t).view.emb (ix2 d e)) = V m c main_arg3 (ix2 d e)
  obtain ⟨-, -, -, -, -, -, -, -, e0, e1, -⟩ := idx_facts t
  refine congrArg _ (funext fun a => Fin.ext ?_)
  match a with
  | ⟨0, _⟩ => show win0_3.index t (0 : Fin 2) * 256 + 1 * d.val = d.val; omega
  | ⟨1, _⟩ => show win0_3.index t (1 : Fin 2) * 256 + 1 * e.val = e.val; omega

theorem w3B_fn (c : Dev nD) (t : Fin cfg0.N) : toFn2 (w3B m c t) = toFn2 (w3A m c) := by
  funext d e
  show V m c main_arg4 (((cfg0.win 4).blk t).view.emb (ix2 d e)) = V m c main_arg4 (ix2 d e)
  obtain ⟨-, -, -, -, -, -, -, -, -, -, e0, e1, -⟩ := idx_facts t
  refine congrArg _ (funext fun a => Fin.ext ?_)
  match a with
  | ⟨0, _⟩ => show win0_4.index t (0 : Fin 2) * 256 + 1 * d.val = d.val; omega
  | ⟨1, _⟩ => show win0_4.index t (1 : Fin 2) * 128 + 1 * e.val = e.val; omega

/-! ## What a point writes back, and the cover -/

/-- The output array the run ends with: the network on every graph. -/
abbrev outA (c : Dev nD) : Vec Ideal S8x2048x128 .f32 :=
  gcnArray (xA m c) (aA m c) (w1A m c) (w2A m c) (w3A m c)

/-- WHAT POINT `t` WRITES BACK is graph `t`'s slice of the network's result. -/
theorem flushed_eq (c : Dev nD) (t : Fin cfg0.N) :
    (dats m 0 c).flushed 5 t = ((cfg0.win 5).blk t).view.read (Elt Ideal) (outA m c) := by
  rw [Cert.KernelIdeal.Value.flushed5]
  refine funext fun (y : S1x2048x128.Idx) => ?_
  obtain ⟨z, n, l, rfl⟩ : ∃ (z : Fin 1) (n : Fin 2048) (l : Fin 128), y = ix3 z n l := ⟨y 0, y 1, y 2, eq_ix3 y⟩
  show out0_5 (xB m c t) (aB m c t) (w1B m c t) (w2B m c t) (w3B m c t) (ix3 z n l)
    = outA m c (((cfg0.win 5).blk t).view.emb (ix3 z n l))
  have hemb : ((cfg0.win 5).blk t).view.emb (ix3 z n l) = ix3 (graphOf t) n l := by
    obtain ⟨-, -, -, -, -, -, -, -, -, -, -, -, e0, e1, e2⟩ := idx_facts t
    have hz : z.val = 0 := by omega
    funext a; apply Fin.ext
    match a with
    | ⟨0, _⟩ => show win0_5.index t (0 : Fin 3) * 1 + 1 * z.val = t.val; omega
    | ⟨1, _⟩ => show win0_5.index t (1 : Fin 3) * 2048 + 1 * n.val = n.val; omega
    | ⟨2, _⟩ => show win0_5.index t (2 : Fin 3) * 128 + 1 * l.val = l.val; omega
  rw [hemb, out_block_eq]
  show _ = gcn (toFn3 (aA m c) (graphOf t)) (toFn3 (xA m c) (graphOf t)) (toFn2 (w1A m c)) (toFn2 (w2A m c)) (toFn2 (w3A m c)) n l
  rw [aB_fn, xB_fn, w1B_fn, w2B_fn, w3B_fn]

/-- An index of the output array is in point `t`'s block iff each coordinate is in the block's range on its axis. -/
theorem mem_blk5 (t : Fin cfg0.N) (i : S8x2048x128.Idx) :
    i ∈ ((cfg0.win 5).blk t).view.set ↔ ∀ a : Fin 3, win0_5.index t a * S1x2048x128.size a ≤ (i a).val
      ∧ (i a).val < win0_5.index t a * S1x2048x128.size a + S1x2048x128.size a := by
  show i ∈ ((View.whole main_v0).slice (win0_5.rect t)).set ↔ _
  rw [View.set_slice_whole, Rect.mem_set_unit]
  exact Iff.rfl

/-- Every entry of the output array lies in the block of its graph's grid point. -/
theorem cover5 (i : S8x2048x128.Idx) :
    ∃ t : Fin cfg0.N, (cfg0.win 5).flush t = true ∧ i ∈ ((cfg0.win 5).blk t).view.set := by
  have h0 : (i 0).val < 8 := (i 0).isLt
  have h1 : (i 1).val < 2048 := (i 1).isLt
  have h2 : (i 2).val < 128 := (i 2).isLt
  refine ⟨⟨(i 0).val, h0⟩, flush0_5 _, ?_⟩
  rw [mem_blk5]
  obtain ⟨-, -, -, -, -, -, -, -, -, -, -, -, e0, e1, e2⟩ := idx_facts ⟨(i 0).val, h0⟩
  intro a
  match a with
  | ⟨0, _⟩ =>
    show win0_5.index ⟨(i 0).val, h0⟩ (0 : Fin 3) * 1 ≤ (i 0).val ∧ (i 0).val < win0_5.index ⟨(i 0).val, h0⟩ (0 : Fin 3) * 1 + 1
    have : win0_5.index ⟨(i 0).val, h0⟩ (0 : Fin 3) = (i 0).val := e0
    omega
  | ⟨1, _⟩ =>
    show win0_5.index ⟨(i 0).val, h0⟩ (1 : Fin 3) * 2048 ≤ (i 1).val ∧ (i 1).val < win0_5.index ⟨(i 0).val, h0⟩ (1 : Fin 3) * 2048 + 2048
    omega
  | ⟨2, _⟩ =>
    show win0_5.index ⟨(i 0).val, h0⟩ (2 : Fin 3) * 128 ≤ (i 2).val ∧ (i 2).val < win0_5.index ⟨(i 0).val, h0⟩ (2 : Fin 3) * 128 + 128
    omega

/-- THE ARRAY after the run: the network on every graph. -/
theorem final5 (c : Dev nD) : (dats m 0 c).arrAt 5 cfg0.N = outA m c :=
  (dats m 0 c).arrAt_eq_of_cover 5 (outA m c) (fun t _ => flushed_eq m c t) cover5

/-! ## The run, read -/

/-- The kernel's run: the output array ends at the network of the argument arrays as launched, the arguments unchanged. -/
theorem run : θ_run defs (onTc (τ := τ) (main (F := Ideal))) ⟨m, fun _ => 0, ρ⟩ fun r => ∀ c : Dev nD,
      r.2.mem ((c : Thread nD τ).loc main_v0)
        = gcnArray (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2⟩)
    (Cert.KernelIdeal.Value.run_blocks m ρ)

end Cert.KernelIdeal.Array

end
-- ==== Proof.RefRun.lean ====
/-
  The reference's run, read back stretch by stretch.

  The reference is three graph-convolution layers and a log-softmax, thirty host operations in a row. Each layer is one
  stretch of five operations (two products, the zero constant, its broadcast, the maximum) and the log-softmax four short
  stretches (the guarded maximum, the shift, the sum of exponentials, the final subtraction). A stretch run from ANY contents `W` of the buffers leaves its result buffer at one function of the
  contents of the few buffers it reads, and leaves the argument buffers alone; so the whole run leaves the result at the
  composition of the four functions of the arguments as launched.
-/
import proofs.«136701_g83425444758234_cont_9to1c4b_234_10_alg».proof.Proof.RefRunP
import Idealize.ShloMosaic.Lib.Pipeline.Frame

noncomputable section

namespace Cert.ReferenceIdeal.RunHand

open Cert.ReferenceIdeal Cert.ReferenceIdeal.Gen Idealize.ShloMosaic Idealize.ShloMosaic.TcCoe Idealize.SL.Sem Idealize.ShloMosaic.StableHlo
open Cert.ReferenceIdeal.ValueP (ops main_eq scopedRefs_eq scopedSems_eq ops_sub)

variable {F : FTy → Type} [FloatOps F]

/-! ## The four functions -/

/-- A layer with 256 output features: `max (adj · (h · w)) 0`, the adjacency product batched over the graphs. -/
def hostLayer256 (h : (⟨S8x2048x256, .f32⟩ : BufTy).Contents (Elt F)) (adj : (⟨S8x2048x2048, .f32⟩ : BufTy).Contents (Elt F)) (w : (⟨S256x256, .f32⟩ : BufTy).Contents (Elt F)) : (⟨S8x2048x256, .f32⟩ : BufTy).Contents (Elt F) :=
  maximumf (Host.dotGeneral dot_S8x2048x2048_S8x2048x256_S8x2048x256_2_1_1_2_0_0 none adj
      (Host.dotGeneral dot_S8x2048x256_S256x256_S8x2048x256_2_0_01_1_n_n none h w))
    (broadcastInDim S8x2048x256 ![] bcast_S_S8x2048x256 (constant S_ .f32 0x00000000#32))

/-- The layer with 128 output features. -/
def hostLayer128 (h : (⟨S8x2048x256, .f32⟩ : BufTy).Contents (Elt F)) (adj : (⟨S8x2048x2048, .f32⟩ : BufTy).Contents (Elt F)) (w : (⟨S256x128, .f32⟩ : BufTy).Contents (Elt F)) : (⟨S8x2048x128, .f32⟩ : BufTy).Contents (Elt F) :=
  maximumf (Host.dotGeneral dot_S8x2048x2048_S8x2048x128_S8x2048x128_2_1_1_2_0_0 none adj
      (Host.dotGeneral dot_S8x2048x256_S256x128_S8x2048x128_2_0_01_1_n_n none h w))
    (broadcastInDim S8x2048x128 ![] bcast_S_S8x2048x128 (constant S_ .f32 0x00000000#32))

/-- The node-axis maximum of each (graph, label), from negative infinity and guarded by it once more. -/
def lsmMax (h : (⟨S8x2048x128, .f32⟩ : BufTy).Contents (Elt F)) : (⟨S8x128, .f32⟩ : BufTy).Contents (Elt F) :=
  maximumf (broadcastInDim S8x128 ![] bcast_S_S8x128 (constant S_ .f32 0xFF800000#32))
    (Host.reduce FloatOps.maximumf h (constant S_ .f32 0xFF800000#32) reducesTo_S8x2048x128_S8x128_d1 h_S_)

/-- The value less its maximum, the maximum spread back over the nodes. -/
def lsmShift (h : (⟨S8x2048x128, .f32⟩ : BufTy).Contents (Elt F)) (mx : (⟨S8x128, .f32⟩ : BufTy).Contents (Elt F)) : (⟨S8x2048x128, .f32⟩ : BufTy).Contents (Elt F) :=
  subf h (broadcastInDim S8x2048x128 ![0, 1, 2] bcast_S8x1x128_S8x2048x128_0_1_2
    (broadcastInDim S8x1x128 ![0, 2] bcast_S8x128_S8x1x128_0_2 mx))

/-- The sum over the nodes of the exponentials of the shifted value, from zero. -/
def lsmSum (s : (⟨S8x2048x128, .f32⟩ : BufTy).Contents (Elt F)) : (⟨S8x128, .f32⟩ : BufTy).Contents (Elt F) :=
  Host.reduceAdd (Host.exp s) (constant S_ .f32 0x00000000#32) reducesTo_S8x2048x128_S8x128_d1 h_S_

/-- The shifted value less the logarithm of that sum, spread back over the nodes. -/
def lsmOut (s : (⟨S8x2048x128, .f32⟩ : BufTy).Contents (Elt F)) (sm : (⟨S8x128, .f32⟩ : BufTy).Contents (Elt F)) : (⟨S8x2048x128, .f32⟩ : BufTy).Contents (Elt F) :=
  subf s (broadcastInDim S8x2048x128 ![0, 1, 2] bcast_S8x1x128_S8x2048x128_0_1_2
    (Host.log (broadcastInDim S8x1x128 ![0, 2] bcast_S8x128_S8x1x128_0_2 sm)))

/-- The log-softmax over the node axis. -/
def hostLogSoftmax (h : (⟨S8x2048x128, .f32⟩ : BufTy).Contents (Elt F)) : (⟨S8x2048x128, .f32⟩ : BufTy).Contents (Elt F) :=
  lsmOut (lsmShift h (lsmMax h)) (lsmSum (lsmShift h (lsmMax h)))

/-- The reference's result as one function of its five arguments. -/
def refOut (x : (⟨S8x2048x256, .f32⟩ : BufTy).Contents (Elt F)) (adj : (⟨S8x2048x2048, .f32⟩ : BufTy).Contents (Elt F)) (w1 w2 : (⟨S256x256, .f32⟩ : BufTy).Contents (Elt F)) (w3 : (⟨S256x128, .f32⟩ : BufTy).Contents (Elt F)) : (⟨S8x2048x128, .f32⟩ : BufTy).Contents (Elt F) :=
  hostLogSoftmax (hostLayer128 (hostLayer256 (hostLayer256 x adj w1) adj w2) adj w3)

/-! ## The four stretches of the operation list -/

abbrev opsA : List (HloOp τ sig (Elt F)) :=
  [ binary main_arg0 main_arg2 main_v0 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    binary main_arg1 main_v0 main_v1 ((fun l r => Host.dotGeneral dot_S8x2048x2048_S8x2048x256_S8x2048x256_2_1_1_2_0_0 none l r) : (⟨S8x2048x2048, .f32⟩ : BufTy).Contents (Elt F) → (⟨S8x2048x256, .f32⟩ : BufTy).Contents (Elt F) → (⟨S8x2048x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8x2048x256, .f32⟩) main_call0_v0) (broadcastInDim S8x2048x256 ![] bcast_S_S8x2048x256),
    TRef.binary (TRef.of (T := ⟨S8x2048x256, .f32⟩) main_v1) (TRef.of (T := ⟨S8x2048x256, .f32⟩) main_call0_v0) (TRef.of (T := ⟨S8x2048x256, .f32⟩) main_v2) maximumf ]

abbrev opsB : List (HloOp τ sig (Elt F)) :=
  [ binary main_v2 main_arg3 main_v3 ((fun l r => Host.dotGeneral dot_S8x2048x256_S256x256_S8x2048x256_2_0_01_1_n_n none l r) : (⟨S8x2048x256, .f32⟩ : BufTy).Contents (Elt F) → (⟨S256x256, .f32⟩ : BufTy).Contents (Elt F) → (⟨S8x2048x256, .f32⟩ : BufTy).Contents (Elt F)),
    binary main_arg1 main_v3 main_v4 ((fun l r => Host.dotGeneral dot_S8x2048x2048_S8x2048x256_S8x2048x256_2_1_1_2_0_0 none l r) : (⟨S8x2048x2048, .f32⟩ : BufTy).Contents (Elt F) → (⟨S8x2048x256, .f32⟩ : BufTy).Contents (Elt F) → (⟨S8x2048x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8x2048x256, .f32⟩) main_call1_v0) (broadcastInDim S8x2048x256 ![] bcast_S_S8x2048x256),
    TRef.binary (TRef.of (T := ⟨S8x2048x256, .f32⟩) main_v4) (TRef.of (T := ⟨S8x2048x256, .f32⟩) main_call1_v0) (TRef.of (T := ⟨S8x2048x256, .f32⟩) main_v5) maximumf ]

abbrev opsC : List (HloOp τ sig (Elt F)) :=
  [ binary main_v5 main_arg4 main_v6 ((fun l r => Host.dotGeneral dot_S8x2048x256_S256x128_S8x2048x128_2_0_01_1_n_n none l r) : (⟨S8x2048x256, .f32⟩ : BufTy).Contents (Elt F) → (⟨S256x128, .f32⟩ : BufTy).Contents (Elt F) → (⟨S8x2048x128, .f32⟩ : BufTy).Contents (Elt F)),
    binary main_arg1 main_v6 main_v7 ((fun l r => Host.dotGeneral dot_S8x2048x2048_S8x2048x128_S8x2048x128_2_1_1_2_0_0 none l r) : (⟨S8x2048x2048, .f32⟩ : BufTy).Contents (Elt F) → (⟨S8x2048x128, .f32⟩ : BufTy).Contents (Elt F) → (⟨S8x2048x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8x2048x128, .f32⟩) main_call2_v0) (broadcastInDim S8x2048x128 ![] bcast_S_S8x2048x128),
    TRef.binary (TRef.of (T := ⟨S8x2048x128, .f32⟩) main_v7) (TRef.of (T := ⟨S8x2048x128, .f32⟩) main_call2_v0) (TRef.of (T := ⟨S8x2048x128, .f32⟩) main_v8) maximumf ]

abbrev opsD1 : List (HloOp τ sig (Elt F)) :=
  [ TRef.nullary (TRef.of (T := ⟨S_, .f32⟩) main_call3_cst) (constant S_ .f32 0xFF800000#32),
    TRef.binary (TRef.of (T := ⟨S8x2048x128, .f32⟩) main_v8) (TRef.of (T := ⟨S_, .f32⟩) main_call3_cst) (TRef.of (T := ⟨S8x128, .f32⟩) main_call3_v0) (fun x v => Host.reduce FloatOps.maximumf x v reducesTo_S8x2048x128_S8x128_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S8x128, .f32⟩) main_call3_v1) (broadcastInDim S8x128 ![] bcast_S_S8x128),
    TRef.binary (TRef.of (T := ⟨S8x128, .f32⟩) main_call3_v1) (TRef.of (T := ⟨S8x128, .f32⟩) main_call3_v0) (TRef.of (T := ⟨S8x128, .f32⟩) main_call3_v2) maximumf ]

abbrev opsD2 : List (HloOp τ sig (Elt F)) :=
  [ TRef.unary (TRef.of (T := ⟨S8x128, .f32⟩) main_call3_v2) (TRef.of (T := ⟨S8x1x128, .f32⟩) main_call3_v3) (broadcastInDim S8x1x128 ![0, 2] bcast_S8x128_S8x1x128_0_2),
    TRef.unary (TRef.of (T := ⟨S8x1x128, .f32⟩) main_call3_v3) (TRef.of (T := ⟨S8x2048x128, .f32⟩) main_call3_v4) (broadcastInDim S8x2048x128 ![0, 1, 2] bcast_S8x1x128_S8x2048x128_0_1_2),
    TRef.binary (TRef.of (T := ⟨S8x2048x128, .f32⟩) main_v8) (TRef.of (T := ⟨S8x2048x128, .f32⟩) main_call3_v4) (TRef.of (T := ⟨S8x2048x128, .f32⟩) main_call3_v5) subf ]

abbrev opsD3 : List (HloOp τ sig (Elt F)) :=
  [ TRef.unary (TRef.of (T := ⟨S8x2048x128, .f32⟩) main_call3_v5) (TRef.of (T := ⟨S8x2048x128, .f32⟩) main_call3_v6) Host.exp,
    TRef.nullary (TRef.of (T := ⟨S_, .f32⟩) main_call3_cst_1) (constant S_ .f32 0x00000000#32),
    TRef.binary (TRef.of (T := ⟨S8x2048x128, .f32⟩) main_call3_v6) (TRef.of (T := ⟨S_, .f32⟩) main_call3_cst_1) (TRef.of (T := ⟨S8x128, .f32⟩) main_call3_v7) (fun x v => Host.reduceAdd x v reducesTo_S8x2048x128_S8x128_d1 h_S_) ]

abbrev opsD4 : List (HloOp τ sig (Elt F)) :=
  [ TRef.unary (TRef.of (T := ⟨S8x128, .f32⟩) main_call3_v7) (TRef.of (T := ⟨S8x1x128, .f32⟩) main_call3_v8) (broadcastInDim S8x1x128 ![0, 2] bcast_S8x128_S8x1x128_0_2),
    TRef.unary (TRef.of (T := ⟨S8x1x128, .f32⟩) main_call3_v8) (TRef.of (T := ⟨S8x1x128, .f32⟩) main_call3_v9) Host.log,
    TRef.unary (TRef.of (T := ⟨S8x1x128, .f32⟩) main_call3_v9) (TRef.of (T := ⟨S8x2048x128, .f32⟩) main_call3_v10) (broadcastInDim S8x2048x128 ![0, 1, 2] bcast_S8x1x128_S8x2048x128_0_1_2),
    TRef.binary (TRef.of (T := ⟨S8x2048x128, .f32⟩) main_call3_v5) (TRef.of (T := ⟨S8x2048x128, .f32⟩) main_call3_v10) (TRef.of (T := ⟨S8x2048x128, .f32⟩) main_v9) subf ]
theorem ops_split : (ops : List (HloOp τ sig (Elt F))) = opsA ++ (opsB ++ (opsC ++ (opsD1 ++ (opsD2 ++ (opsD3 ++ opsD4))))) := rfl

variable (W : Valuation τ sig (Elt F))

/-! ## Each stretch: what it leaves in its result, what it leaves alone -/

theorem valA : after (opsA (F := F)) W ((Proc.tc : Proc τ).devRef main_v2)
    = hostLayer256 (W ((Proc.tc : Proc τ).devRef main_arg0)) (W ((Proc.tc : Proc τ).devRef main_arg1)) (W ((Proc.tc : Proc τ).devRef main_arg2)) := by
  after_results <;> rfl
theorem keepA_arg1 : after (opsA (F := F)) W ((Proc.tc : Proc τ).devRef main_arg1) = W ((Proc.tc : Proc τ).devRef main_arg1) := by after_results <;> rfl
theorem keepA_arg3 : after (opsA (F := F)) W ((Proc.tc : Proc τ).devRef main_arg3) = W ((Proc.tc : Proc τ).devRef main_arg3) := by after_results <;> rfl
theorem keepA_arg4 : after (opsA (F := F)) W ((Proc.tc : Proc τ).devRef main_arg4) = W ((Proc.tc : Proc τ).devRef main_arg4) := by after_results <;> rfl

theorem valB : after (opsB (F := F)) W ((Proc.tc : Proc τ).devRef main_v5)
    = hostLayer256 (W ((Proc.tc : Proc τ).devRef main_v2)) (W ((Proc.tc : Proc τ).devRef main_arg1)) (W ((Proc.tc : Proc τ).devRef main_arg3)) := by
  after_results <;> rfl
theorem keepB_arg1 : after (opsB (F := F)) W ((Proc.tc : Proc τ).devRef main_arg1) = W ((Proc.tc : Proc τ).devRef main_arg1) := by after_results <;> rfl
theorem keepB_arg4 : after (opsB (F := F)) W ((Proc.tc : Proc τ).devRef main_arg4) = W ((Proc.tc : Proc τ).devRef main_arg4) := by after_results <;> rfl

theorem valC : after (opsC (F := F)) W ((Proc.tc : Proc τ).devRef main_v8)
    = hostLayer128 (W ((Proc.tc : Proc τ).devRef main_v5)) (W ((Proc.tc : Proc τ).devRef main_arg1)) (W ((Proc.tc : Proc τ).devRef main_arg4)) := by
  after_results <;> rfl

/-- The first log-softmax stretch with its reduction left as ANY function of the reduced array and the start value: what
    the stretch leaves does not depend on what the reduction computes. -/
abbrev opsD1of (R : (⟨S8x2048x128, .f32⟩ : BufTy).Contents (Elt F) → (⟨S_, .f32⟩ : BufTy).Contents (Elt F) → (⟨S8x128, .f32⟩ : BufTy).Contents (Elt F)) : List (HloOp τ sig (Elt F)) :=
  [ TRef.nullary (TRef.of (T := ⟨S_, .f32⟩) main_call3_cst) (constant S_ .f32 0xFF800000#32),
    TRef.binary (TRef.of (T := ⟨S8x2048x128, .f32⟩) main_v8) (TRef.of (T := ⟨S_, .f32⟩) main_call3_cst) (TRef.of (T := ⟨S8x128, .f32⟩) main_call3_v0) R,
    TRef.nullary (TRef.of (T := ⟨S_, .f32⟩) main_call3_cst_0) (constant S_ .f32 0xFF800000#32),
    TRef.unary (TRef.of (T := ⟨S_, .f32⟩) main_call3_cst_0) (TRef.of (T := ⟨S8x128, .f32⟩) main_call3_v1) (broadcastInDim S8x128 ![] bcast_S_S8x128),
    TRef.binary (TRef.of (T := ⟨S8x128, .f32⟩) main_call3_v1) (TRef.of (T := ⟨S8x128, .f32⟩) main_call3_v0) (TRef.of (T := ⟨S8x128, .f32⟩) main_call3_v2) maximumf ]

theorem valD1of (R : (⟨S8x2048x128, .f32⟩ : BufTy).Contents (Elt F) → (⟨S_, .f32⟩ : BufTy).Contents (Elt F) → (⟨S8x128, .f32⟩ : BufTy).Contents (Elt F)) : after (opsD1of (F := F) R) W ((Proc.tc : Proc τ).devRef main_call3_v2)
    = maximumf (broadcastInDim S8x128 ![] bcast_S_S8x128 (constant S_ .f32 0xFF800000#32)) (R (W ((Proc.tc : Proc τ).devRef main_v8)) (constant S_ .f32 0xFF800000#32)) := by
  after_results <;> rfl

theorem valD1 : after (opsD1 (F := F)) W ((Proc.tc : Proc τ).devRef main_call3_v2) = lsmMax (W ((Proc.tc : Proc τ).devRef main_v8)) :=
  valD1of W (fun x v => Host.reduce FloatOps.maximumf x v reducesTo_S8x2048x128_S8x128_d1 h_S_)
theorem keepD1_v8 : after (opsD1 (F := F)) W ((Proc.tc : Proc τ).devRef main_v8) = W ((Proc.tc : Proc τ).devRef main_v8) := by after_results <;> rfl

theorem valD2 : after (opsD2 (F := F)) W ((Proc.tc : Proc τ).devRef main_call3_v5) = lsmShift (W ((Proc.tc : Proc τ).devRef main_v8)) (W ((Proc.tc : Proc τ).devRef main_call3_v2)) := by
  after_results <;> rfl

theorem valD3 : after (opsD3 (F := F)) W ((Proc.tc : Proc τ).devRef main_call3_v7) = lsmSum (W ((Proc.tc : Proc τ).devRef main_call3_v5)) := by
  after_results <;> rfl
theorem keepD3_v5 : after (opsD3 (F := F)) W ((Proc.tc : Proc τ).devRef main_call3_v5) = W ((Proc.tc : Proc τ).devRef main_call3_v5) := by after_results <;> rfl

theorem valD4 : after (opsD4 (F := F)) W ((Proc.tc : Proc τ).devRef main_v9) = lsmOut (W ((Proc.tc : Proc τ).devRef main_call3_v5)) (W ((Proc.tc : Proc τ).devRef main_call3_v7)) := by
  after_results <;> rfl

/-! ## The whole list -/

/-- After all thirty operations the result buffer holds `refOut` of the arguments' contents before them. -/
theorem after_ops_main_v9 : after (ops (F := F)) W ((Proc.tc : Proc τ).devRef main_v9)
    = refOut (W ((Proc.tc : Proc τ).devRef main_arg0)) (W ((Proc.tc : Proc τ).devRef main_arg1)) (W ((Proc.tc : Proc τ).devRef main_arg2)) (W ((Proc.tc : Proc τ).devRef main_arg3)) (W ((Proc.tc : Proc τ).devRef main_arg4)) := by
  rw [ops_split, StableHlo.after_append, StableHlo.after_append, StableHlo.after_append, StableHlo.after_append,
    StableHlo.after_append, StableHlo.after_append, valD4, valD3, keepD3_v5, valD2, valD1, keepD1_v8, valC, valB, valA,
    keepB_arg1, keepB_arg4, keepA_arg1, keepA_arg3, keepA_arg4]
  rfl

/-- On every device, from any memory with zero counters: every weakly fair execution of @main terminates with the result
    at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v9).trans (after_ops_main_v9 (launchContents m c)),
      (h c main_arg0).trans (by after_results <;> rfl),
      (h c main_arg1).trans (by after_results <;> rfl),
      (h c main_arg2).trans (by after_results <;> rfl),
      (h c main_arg3).trans (by after_results <;> rfl),
      (h c main_arg4).trans (by after_results <;> rfl)⟩)
    (run_seq scopedRefs_eq scopedSems_eq defs main (fun _ => ops) main_eq (fun _ => ops_sub) m ρ)

end Cert.ReferenceIdeal.RunHand

end
-- ==== Proof.RefSpec.lean ====
/-
  The reference, read index by index, is the network of the specification.

  Graph `b`'s slice of each intermediate array is read as a matrix. A product with a shared weight matrix contracts the
  feature axis: the slice of the result is the support of the slice. The batched product with the adjacency contracts the
  node axis inside one graph: followed by the maximum with zero it is the aggregation of the slice. The log-softmax reduces
  over the node axis (axis 1) with the graph and the label kept: its maximum, guarded once more by negative infinity (which
  changes nothing, the fold already starting there), is the column maximum of the slice, and its sum starts from zero.
-/
import proofs.«136701_g83425444758234_cont_9to1c4b_234_10_alg».proof.Proof.RefReadP
import proofs.«136701_g83425444758234_cont_9to1c4b_234_10_alg».proof.Proof.RefRun
import proofs.«136701_g83425444758234_cont_9to1c4b_234_10_alg».proof.Proof.Spec

noncomputable section

open scoped BigOperators

namespace Cert.ReferenceIdeal.RefSpec

open Cert.ReferenceIdeal Cert.ReferenceIdeal.Gen Cert.ReferenceIdeal.ReadP Idealize.ShloMosaic Idealize.ShloMosaic.ValueIdx Cert.Gcn

/-! ## The operand indices of the six products, by coordinates -/

section Indices
variable (b : Fin 8) (n : Fin 2048) (k2 : Fin 2048)

theorem l0 (e k : Fin 256) : lidx_main_v0 (ix3 b n e) k = ix3 b n k := by
  funext a; match a with
  | ⟨0, _⟩ => rfl
  | ⟨1, _⟩ => rfl
  | ⟨2, _⟩ => rfl
theorem r0 (e k : Fin 256) : ridx_main_v0 (ix3 b n e) k = ix2 k e := by
  funext a; match a with
  | ⟨0, _⟩ => rfl
  | ⟨1, _⟩ => rfl
theorem l1 (e : Fin 256) : lidx_main_v1 (ix3 b n e) k2 = ix3 b n k2 := by
  funext a; match a with
  | ⟨0, _⟩ => rfl
  | ⟨1, _⟩ => rfl
  | ⟨2, _⟩ => rfl
theorem r1 (e : Fin 256) : ridx_main_v1 (ix3 b n e) k2 = ix3 b k2 e := by
  funext a; match a with
  | ⟨0, _⟩ => rfl
  | ⟨1, _⟩ => rfl
  | ⟨2, _⟩ => rfl
theorem l3 (e k : Fin 256) : lidx_main_v3 (ix3 b n e) k = ix3 b n k := by
  funext a; match a with
  | ⟨0, _⟩ => rfl
  | ⟨1, _⟩ => rfl
  | ⟨2, _⟩ => rfl
theorem r3 (e k : Fin 256) : ridx_main_v3 (ix3 b n e) k = ix2 k e := by
  funext a; match a with
  | ⟨0, _⟩ => rfl
  | ⟨1, _⟩ => rfl
theorem l4 (e : Fin 256) : lidx_main_v4 (ix3 b n e) k2 = ix3 b n k2 := by
  funext a; match a with
  | ⟨0, _⟩ => rfl
  | ⟨1, _⟩ => rfl
  | ⟨2, _⟩ => rfl
theorem r4 (e : Fin 256) : ridx_main_v4 (ix3 b n e) k2 = ix3 b k2 e := by
  funext a; match a with
  | ⟨0, _⟩ => rfl
  | ⟨1, _⟩ => rfl
  | ⟨2, _⟩ => rfl
theorem l6 (e : Fin 128) (k : Fin 256) : lidx_main_v6 (ix3 b n e) k = ix3 b n k := by
  funext a; match a with
  | ⟨0, _⟩ => rfl
  | ⟨1, _⟩ => rfl
  | ⟨2, _⟩ => rfl
theorem r6 (e : Fin 128) (k : Fin 256) : ridx_main_v6 (ix3 b n e) k = ix2 k e := by
  funext a; match a with
  | ⟨0, _⟩ => rfl
  | ⟨1, _⟩ => rfl
theorem l7 (e : Fin 128) : lidx_main_v7 (ix3 b n e) k2 = ix3 b n k2 := by
  funext a; match a with
  | ⟨0, _⟩ => rfl
  | ⟨1, _⟩ => rfl
  | ⟨2, _⟩ => rfl
theorem r7 (e : Fin 128) : ridx_main_v7 (ix3 b n e) k2 = ix3 b k2 e := by
  funext a; match a with
  | ⟨0, _⟩ => rfl
  | ⟨1, _⟩ => rfl
  | ⟨2, _⟩ => rfl

end Indices

/-! ## The three layers -/

variable (x0 : (⟨S8x2048x256, .f32⟩ : BufTy).Contents (Elt Ideal)) (x1 : (⟨S8x2048x2048, .f32⟩ : BufTy).Contents (Elt Ideal)) (x2 x3 : (⟨S256x256, .f32⟩ : BufTy).Contents (Elt Ideal)) (x4 : (⟨S256x128, .f32⟩ : BufTy).Contents (Elt Ideal)) (b : Fin 8)

theorem v0_fn : toFn3 (val_main_v0 (F := Ideal) x0 x2) b = support (toFn3 x0 b) (toFn2 x2) := by
  funext n e
  show val_main_v0 (F := Ideal) x0 x2 (ix3 b n e) = ∑ d : Fin 256, x0 (ix3 b n d) * x2 (ix2 d e)
  rw [val_main_v0_apply]
  refine Finset.sum_congr rfl fun k _ => ?_
  rw [l0, r0]

theorem v2_fn : toFn3 (val_main_v2 (F := Ideal) x0 x1 x2) b = layer (toFn3 x1 b) (toFn3 x0 b) (toFn2 x2) := by
  funext n e
  show val_main_v2 (F := Ideal) x0 x1 x2 (ix3 b n e)
    = max (∑ k : Fin 2048, x1 (ix3 b n k) * support (toFn3 x0 b) (toFn2 x2) k e) 0
  rw [val_main_v2_apply, val_main_v1_apply, val_main_call0_v0_apply, val_main_call0_cst_apply, ← v0_fn x0 x2 b]
  show max _ (Ideal.ofBits .f32 0x00000000#32) = _
  rw [Ideal.ofBits_zero_f32]
  refine congrArg (fun z => max z 0) (Finset.sum_congr rfl fun k _ => ?_)
  rw [l1, r1]
  rfl

theorem v3_fn : toFn3 (val_main_v3 (F := Ideal) x0 x1 x2 x3) b = support (toFn3 (val_main_v2 (F := Ideal) x0 x1 x2) b) (toFn2 x3) := by
  funext n e
  show val_main_v3 (F := Ideal) x0 x1 x2 x3 (ix3 b n e) = ∑ d : Fin 256, val_main_v2 (F := Ideal) x0 x1 x2 (ix3 b n d) * x3 (ix2 d e)
  rw [val_main_v3_apply]
  refine Finset.sum_congr rfl fun k _ => ?_
  rw [l3, r3]

theorem v5_fn : toFn3 (val_main_v5 (F := Ideal) x0 x1 x2 x3) b
    = layer (toFn3 x1 b) (toFn3 (val_main_v2 (F := Ideal) x0 x1 x2) b) (toFn2 x3) := by
  funext n e
  show val_main_v5 (F := Ideal) x0 x1 x2 x3 (ix3 b n e)
    = max (∑ k : Fin 2048, x1 (ix3 b n k) * support (toFn3 (val_main_v2 (F := Ideal) x0 x1 x2) b) (toFn2 x3) k e) 0
  rw [val_main_v5_apply, val_main_v4_apply, val_main_call1_v0_apply, val_main_call1_cst_apply, ← v3_fn x0 x1 x2 x3 b]
  show max _ (Ideal.ofBits .f32 0x00000000#32) = _
  rw [Ideal.ofBits_zero_f32]
  refine congrArg (fun z => max z 0) (Finset.sum_congr rfl fun k _ => ?_)
  rw [l4, r4]
  rfl

theorem v6_fn : toFn3 (val_main_v6 (F := Ideal) x0 x1 x2 x3 x4) b = support (toFn3 (val_main_v5 (F := Ideal) x0 x1 x2 x3) b) (toFn2 x4) := by
  funext n e
  show val_main_v6 (F := Ideal) x0 x1 x2 x3 x4 (ix3 b n e) = ∑ d : Fin 256, val_main_v5 (F := Ideal) x0 x1 x2 x3 (ix3 b n d) * x4 (ix2 d e)
  rw [val_main_v6_apply]
  refine Finset.sum_congr rfl fun k _ => ?_
  rw [l6, r6]

theorem v8_fn : toFn3 (val_main_v8 (F := Ideal) x0 x1 x2 x3 x4) b
    = layer (toFn3 x1 b) (toFn3 (val_main_v5 (F := Ideal) x0 x1 x2 x3) b) (toFn2 x4) := by
  funext n e
  show val_main_v8 (F := Ideal) x0 x1 x2 x3 x4 (ix3 b n e)
    = max (∑ k : Fin 2048, x1 (ix3 b n k) * support (toFn3 (val_main_v5 (F := Ideal) x0 x1 x2 x3) b) (toFn2 x4) k e) 0
  rw [val_main_v8_apply, val_main_v7_apply, val_main_call2_v0_apply, val_main_call2_cst_apply, ← v6_fn x0 x1 x2 x3 x4 b]
  show max _ (Ideal.ofBits .f32 0x00000000#32) = _
  rw [Ideal.ofBits_zero_f32]
  refine congrArg (fun z => max z 0) (Finset.sum_congr rfl fun k _ => ?_)
  rw [l7, r7]
  rfl

/-- The three layers of graph `b`. -/
theorem layers_fn : toFn3 (val_main_v8 (F := Ideal) x0 x1 x2 x3 x4) b
    = layer (toFn3 x1 b) (layer (toFn3 x1 b) (layer (toFn3 x1 b) (toFn3 x0 b) (toFn2 x2)) (toFn2 x3)) (toFn2 x4) := by
  rw [v8_fn, v5_fn, v2_fn]

/-! ## The log-softmax over the nodes -/

/-- The node coordinate put back between the graph and the label. -/
theorem lift_node (l : Fin 128) (k : Fin 2048) :
    (by decide : S8x2048x128.Reduces [1] S8x128).lift (ix2 b l) k = ix3 b k l := by
  funext c
  apply Fin.ext
  match c with
  | ⟨0, _⟩ => rfl
  | ⟨1, _⟩ => rfl
  | ⟨2, _⟩ => rfl

/-- The guarded node-axis maximum at (graph, label) is the column maximum of the graph's slice. -/
theorem colmax_fn (l : Fin 128) :
    val_main_call3_v2 (F := Ideal) x0 x1 x2 x3 x4 (ix2 b l) = colMax (toFn3 (val_main_v8 (F := Ideal) x0 x1 x2 x3 x4) b) l := by
  rw [val_main_call3_v2_apply, val_main_call3_v1_apply, val_main_call3_cst_0_apply]
  unfold val_main_call3_v0
  rw [Host.reduce_eq_fold_single FloatOps.maximumf _ _ reducesTo_S8x2048x128_S8x128_d1 (by decide) h_S_ (ix2 b l)]
  rw [val_main_call3_cst_apply]
  show max negInf ((Finset.univ : Finset (Fin 2048)).fold max negInf
      (fun k => val_main_v8 (F := Ideal) x0 x1 x2 x3 x4 ((by decide : S8x2048x128.Reduces [1] S8x128).lift (ix2 b l) k))) = _
  have hfun : (fun k : Fin 2048 => val_main_v8 (F := Ideal) x0 x1 x2 x3 x4 ((by decide : S8x2048x128.Reduces [1] S8x128).lift (ix2 b l) k))
      = fun k => toFn3 (val_main_v8 (F := Ideal) x0 x1 x2 x3 x4) b k l :=
    funext fun k => congrArg (val_main_v8 (F := Ideal) x0 x1 x2 x3 x4) (lift_node b l k)
  exact (congrArg (fun f => max negInf ((Finset.univ : Finset (Fin 2048)).fold max negInf f)) hfun).trans
    (max_negInf_colMax (toFn3 (val_main_v8 (F := Ideal) x0 x1 x2 x3 x4) b) l)

/-- The shifted value. -/
theorem shifted_fn (n : Fin 2048) (l : Fin 128) :
    val_main_call3_v5 (F := Ideal) x0 x1 x2 x3 x4 (ix3 b n l) = shifted (toFn3 (val_main_v8 (F := Ideal) x0 x1 x2 x3 x4) b) n l := by
  rw [val_main_call3_v5_apply, val_main_call3_v4_apply, val_main_call3_v3_apply]
  have e : idx_main_call3_v3 (idx_main_call3_v4 (ix3 b n l)) = ix2 b l := by
    funext a; match a with
    | ⟨0, _⟩ => rfl
    | ⟨1, _⟩ => rfl
  rw [e, colmax_fn]
  rfl

/-- The sum of the exponentials down a column, from zero. -/
theorem sumexp_fn (l : Fin 128) :
    val_main_call3_v7 (F := Ideal) x0 x1 x2 x3 x4 (ix2 b l)
      = ∑ k : Fin 2048, Ideal.exp (shifted (toFn3 (val_main_v8 (F := Ideal) x0 x1 x2 x3 x4) b) k l) := by
  rw [val_main_call3_v7_apply, val_main_call3_cst_1_apply]
  show Ideal.ofBits .f32 0x00000000#32 + _ = _
  rw [Ideal.ofBits_zero_f32, zero_add]
  refine Finset.sum_congr rfl fun k _ => ?_
  have e : idx_main_call3_v7 (ix2 b l) k = ix3 b k l := by
    funext a; match a with
    | ⟨0, _⟩ => rfl
    | ⟨1, _⟩ => rfl
    | ⟨2, _⟩ => rfl
  rw [e, val_main_call3_v6_apply, shifted_fn]
  rfl

/-- THE REFERENCE IS THE SPECIFICATION: its staged value is `gcnArray` of the five arguments. -/
theorem val_eq_gcnArray : val_main_v9 (F := Ideal) x0 x1 x2 x3 x4 = gcnArray x0 x1 x2 x3 x4 := by
  funext i
  obtain ⟨bb, n, l, rfl⟩ : ∃ (bb : Fin 8) (n : Fin 2048) (l : Fin 128), i = ix3 bb n l := ⟨i 0, i 1, i 2, eq_ix3 i⟩
  show _ = gcn (toFn3 x1 bb) (toFn3 x0 bb) (toFn2 x2) (toFn2 x3) (toFn2 x4) n l
  rw [val_main_v9_apply, val_main_call3_v10_apply, val_main_call3_v9_apply, val_main_call3_v8_apply, shifted_fn]
  have e : idx_main_call3_v8 (idx_main_call3_v10 (ix3 bb n l)) = ix2 bb l := by
    funext a; match a with
    | ⟨0, _⟩ => rfl
    | ⟨1, _⟩ => rfl
  rw [e, sumexp_fn, layers_fn]
  rfl

/-- The run's composed function is the staged value. -/
theorem refOut_eq_val {F : FTy → Type} [FloatOps F] (y0 : (⟨S8x2048x256, .f32⟩ : BufTy).Contents (Elt F)) (y1 : (⟨S8x2048x2048, .f32⟩ : BufTy).Contents (Elt F))
    (y2 y3 : (⟨S256x256, .f32⟩ : BufTy).Contents (Elt F)) (y4 : (⟨S256x128, .f32⟩ : BufTy).Contents (Elt F)) :
    Cert.ReferenceIdeal.RunHand.refOut y0 y1 y2 y3 y4 = val_main_v9 (F := F) y0 y1 y2 y3 y4 := rfl

end Cert.ReferenceIdeal.RefSpec

end
-- ==== Proof.lean ====
/-
  The proof of `Cert.Claim`: the fused three-layer graph-convolution kernel against its jnp reference.

  Both programs compute, for each of the eight graphs, h ↦ relu (adj · (h · W)) three times over and then a log-softmax
  down the node axis. The kernel does it one graph per grid step, multiplying the adjacency by each support in eight slabs
  of 256 rows; the reference does it with batched products over all graphs at once. On the extended reals a sum does not
  depend on how it is accumulated and a slab of rows of a product is the rows of the product, so both results are the one
  array `Cert.Gcn.gcnArray` of the five arguments (Proof/Spec.lean): the kernel's by Proof/KernelLayer.lean,
  Proof/KernelBlock.lean and Proof/KernelArray.lean, the reference's by Proof/RefRun.lean and Proof/RefSpec.lean. No
  step uses that the inputs are finite. The idealization rewrote nothing, so `preserves` has nothing to say.
-/
import proofs.«136701_g83425444758234_cont_9to1c4b_234_10_alg».proof.Defs
import proofs.«136701_g83425444758234_cont_9to1c4b_234_10_alg».proof.Proof.Gen.Kernel
import proofs.«136701_g83425444758234_cont_9to1c4b_234_10_alg».proof.Proof.Gen.Kernel.Skeleton
import proofs.«136701_g83425444758234_cont_9to1c4b_234_10_alg».proof.Proof.Gen.Kernel.Launch
import proofs.«136701_g83425444758234_cont_9to1c4b_234_10_alg».proof.Proof.Gen.Kernel.Points
import proofs.«136701_g83425444758234_cont_9to1c4b_234_10_alg».proof.Proof.Gen.Kernel.Frame
import proofs.«136701_g83425444758234_cont_9to1c4b_234_10_alg».proof.Proof.Gen.KernelIdeal
import proofs.«136701_g83425444758234_cont_9to1c4b_234_10_alg».proof.Proof.Gen.KernelIdeal.Skeleton
import proofs.«136701_g83425444758234_cont_9to1c4b_234_10_alg».proof.Proof.Gen.KernelIdeal.Launch
import proofs.«136701_g83425444758234_cont_9to1c4b_234_10_alg».proof.Proof.Gen.KernelIdeal.Points
import proofs.«136701_g83425444758234_cont_9to1c4b_234_10_alg».proof.Proof.Gen.KernelIdeal.Frame
import proofs.«136701_g83425444758234_cont_9to1c4b_234_10_alg».proof.Proof.Gen.ReferenceIdeal
import proofs.«136701_g83425444758234_cont_9to1c4b_234_10_alg».proof.Proof.Gen.Pre_finite_inputs
import proofs.«136701_g83425444758234_cont_9to1c4b_234_10_alg».proof.Proof.Gen.KernelIdeal.Value
import proofs.«136701_g83425444758234_cont_9to1c4b_234_10_alg».proof.Proof.KernelArray
import proofs.«136701_g83425444758234_cont_9to1c4b_234_10_alg».proof.Proof.RefSpec
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.RunHand.run (F := Ideal) m ρ)

/-- The idealization rewrote no operation. -/
theorem preserves : Cert.preserves_Kernel_KernelIdeal := trivial

/-- Both programs end with the network's array of their (agreeing) arguments. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.RunHand.run (F := Ideal) m' ρ')
  rw [Cert.ReferenceIdeal.RefSpec.refOut_eq_val, Cert.ReferenceIdeal.RefSpec.val_eq_gcnArray,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
